-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_arg6 : FVec F S256x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x256 : Shape := ⟨2, ![50000, 256]⟩
abbrev S5000x256 : Shape := ⟨2, ![5000, 256]⟩

abbrev nBuf : Space → Nat
  | .hbm => 122
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .f32⟩
  | .hbm, ⟨68, _⟩ => ⟨S850000, .f32⟩
  | .hbm, ⟨69, _⟩ => ⟨S_, .f32⟩
  | .hbm, ⟨70, _⟩ => ⟨S50000, .f32⟩
  | .hbm, ⟨71, _⟩ => ⟨S850000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .i1⟩
  | .hbm, ⟨76, _⟩ => ⟨S50000, .f32⟩
  | .hbm, ⟨77, _⟩ => ⟨S_, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000, .f32⟩
  | .hbm, ⟨99, _⟩ => ⟨S850000, .f32⟩
  | .hbm, ⟨100, _⟩ => ⟨S50000x128, .f32⟩
  | .hbm, ⟨101, _⟩ => ⟨S850000x1, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x128, .f32⟩
  | .hbm, ⟨111, _⟩ => ⟨S850000x128, .f32⟩
  | .hbm, ⟨112, _⟩ => ⟨S850000x128, .f32⟩
  | .hbm, ⟨113, _⟩ => ⟨S_, .f32⟩
  | .hbm, ⟨114, _⟩ => ⟨S50000x128, .f32⟩
  | .hbm, ⟨115, _⟩ => ⟨S850000x1, .i32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x256, .f32⟩
  | .hbm, ⟨120, _⟩ => ⟨S1x128, .f32⟩
  | .hbm, ⟨121, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x256, .f32⟩
  | .local _ .vmem, ⟨21, _⟩ => ⟨S5000x256, .f32⟩
  | .local _ .vmem, ⟨22, _⟩ => ⟨S256x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v85) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S50000x128, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x256, .f32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
import proofs.«122393_j6803228196877_1_alg».proof.Proof.Gen.ReferenceIdeal

/-!
  The host side the two programs share, as functions of arrays. A graph of 50000 nodes is given by 800000 edges
  (row 0 of the edge list the sources, row 1 the destinations), to which the 50000 self loops are appended. One layer
  sends a node's features `h` along every edge, scaled by `deg(src)^(-1/2) · deg(dst)^(-1/2)` (the degree counted at
  the destinations, self loops included; `0` where a degree is not positive), adds them up at the destination, adds a
  bias row to every node and clips at zero from below. Two layers, their outputs side by side, times a last matrix, plus
  a last bias row. The features a layer sends are a matrix product, the rows and the zero array are parameters: the two
  programs spell those differently.
-/

noncomputable section

namespace Cert.ReferenceIdeal.Spec

open Cert.ReferenceIdeal Cert.ReferenceIdeal.Gen Idealize.ShloMosaic

variable {F : FTy → Type} [FloatOps F]

/-- The sources: row 0 of the edge list, then the nodes `0, …, 49999` (the self loops). -/
def srcOf (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destinations: row 1 of the edge list, then the nodes `0, …, 49999`. -/
def dstOf (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node number below zero counts from the end: `i + 50000` where `i < 0`, else `i`. -/
def wrap (s : IVec S850000 32) : IVec S850000 32 :=
  select (cmpi .slt s (broadcastInDim S850000 ![] bcast_S_S850000 (constantI S_ 32 0#32))) (addi s (broadcastInDim S850000 ![] bcast_S_S850000 (constantI S_ 32 50000#32))) s

/-- The degree of every node: one unit added at each destination. -/
def deg (d : IVec S850000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- `deg^(-1/2)` where the degree is positive, `0` elsewhere. -/
def dinv (d : IVec S850000 32) : FVec F S50000 .f32 :=
  select (cmpf (F := F) .ogt (deg d) (broadcastInDim S50000 ![] bcast_S_S50000 (constant S_ .f32 0x00000000#32))) (Host.rsqrt (deg d)) (broadcastInDim S50000 ![] bcast_S_S50000 (id (constant S_ .f32 0x00000000#32)))

/-- An edge's weight: `dinv` at its source times `dinv` at its destination. -/
def normOf (s d : IVec S850000 32) : FVec F S850000 .f32 :=
  mulf (Host.gather gather_S50000_S850000x1_S850000_n_0_n_n_0_1_1 (dinv d) (broadcastInDim S850000x1 ![0] bcast_S850000_S850000x1_0 (wrap s)))
    (Host.gather gather_S50000_S850000x1_S850000_n_0_n_n_0_1_1 (dinv d) (broadcastInDim S850000x1 ![0] bcast_S850000_S850000x1_0 (wrap d)))

/-- The features `h` sent along every edge with weight `nrm` and added up at the destinations. -/
def aggOf (nrm : FVec F S850000 .f32) (s d : IVec S850000 32) (h : FVec F S50000x128 .f32) : FVec F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d)
    (mulf (broadcastInDim S850000x128 ![0, 1] bcast_S850000x1_S850000x128_0_1 (broadcastInDim S850000x1 ![0] bcast_S850000_S850000x1_0 nrm)) (Host.gather gather_S50000x128_S850000x1_S850000x128_1_0_n_n_0_1_1128 h (broadcastInDim S850000x1 ![0] bcast_S850000_S850000x1_0 (wrap s))))

/-- One layer after its matrix product `h`: aggregate, add the bias row to every node, clip at `z` from below. -/
def conv (ei : IVec S2x800000 32) (h : FVec F S50000x128 .f32) (row : FVec F S1x128 .f32) (z : FVec F S50000x128 .f32) : FVec F S50000x128 .f32 :=
  maximumf (addf (aggOf (normOf (srcOf ei) (dstOf ei)) (srcOf ei) (dstOf ei) h) (broadcastInDim S50000x128 ![0, 1] bcast_S1x128_S50000x128_0_1 row)) z

/-- The whole network: two layers, side by side, times the last matrix, plus the last bias row. -/
def out (dd : DotDims S50000x128 S128x128 S50000x128) (dl : DotDims S50000x256 S256x128 S50000x128)
    (x : FVec F S50000x128 .f32) (ei : IVec S2x800000 32) (W1 : FVec F S128x128 .f32) (r1 : FVec F S1x128 .f32)
    (W2 : FVec F S128x128 .f32) (r2 : FVec F S1x128 .f32) (LW : FVec F S256x128 .f32) (r3 : FVec F S1x128 .f32)
    (z : FVec F S50000x128 .f32) : FVec F S50000x128 .f32 :=
  addf (Host.dotGeneral dl none (concatenate S50000x256 1 [⟨S50000x128, (conv ei (Host.dotGeneral dd none x W1) r1 z)⟩, ⟨S50000x128, (conv ei (Host.dotGeneral dd none (conv ei (Host.dotGeneral dd none x W1) r1 z) W2) r2 z)⟩] concatenates_S50000x128_S50000x128_S50000x256_d1) LW)
    (broadcastInDim S50000x128 ![0, 1] bcast_S1x128_S50000x128_0_1 r3)

end Cert.ReferenceIdeal.Spec

end
-- ==== Proof.KSpec.lean ====
import proofs.«122393_j6803228196877_1_alg».proof.Proof.Gen.KernelIdeal
import proofs.«122393_j6803228196877_1_alg».proof.Proof.Spec

/-!
  The shared host functions once more, spelt with the kernel program's own shapes and records, and each equal to its
  namesake over the reference program's: the two programs print the same shapes and the same gather, scatter and
  concatenate records under two names.
-/

noncomputable section

namespace Cert.KernelIdeal.Spec

open Cert.KernelIdeal Cert.KernelIdeal.Gen Idealize.ShloMosaic

variable {F : FTy → Type} [FloatOps F]

/-- The sources: row 0 of the edge list, then the nodes `0, …, 49999`. -/
def srcOf (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destinations: row 1 of the edge list, then the nodes `0, …, 49999`. -/
def dstOf (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- `i + 50000` where `i < 0`, else `i`. -/
def wrap (s : IVec S850000 32) : IVec S850000 32 :=
  select (cmpi .slt s (broadcastInDim S850000 ![] bcast_S_S850000 (constantI S_ 32 0#32))) (addi s (broadcastInDim S850000 ![] bcast_S_S850000 (constantI S_ 32 50000#32))) s

/-- The degree of every node: one unit added at each destination. -/
def deg (d : IVec S850000 32) : FVec F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- `deg^(-1/2)` where the degree is positive, `0` elsewhere. -/
def dinv (d : IVec S850000 32) : FVec F S50000 .f32 :=
  select (cmpf (F := F) .ogt (deg d) (broadcastInDim S50000 ![] bcast_S_S50000 (constant S_ .f32 0x00000000#32))) (Host.rsqrt (deg d)) (broadcastInDim S50000 ![] bcast_S_S50000 (id (constant S_ .f32 0x00000000#32)))

/-- An edge's weight: `dinv` at its source times `dinv` at its destination. -/
def normOf (s d : IVec S850000 32) : FVec F S850000 .f32 :=
  mulf (Host.gather gather_S50000_S850000x1_S850000_n_0_n_n_0_1_1 (dinv d) (broadcastInDim S850000x1 ![0] bcast_S850000_S850000x1_0 (wrap s)))
    (Host.gather gather_S50000_S850000x1_S850000_n_0_n_n_0_1_1 (dinv d) (broadcastInDim S850000x1 ![0] bcast_S850000_S850000x1_0 (wrap d)))

/-- The edge weights from a given table of inverse root degrees. -/
def normWith (di : FVec F S50000 .f32) (s d : IVec S850000 32) : FVec F S850000 .f32 :=
  mulf (Host.gather gather_S50000_S850000x1_S850000_n_0_n_n_0_1_1 di (broadcastInDim S850000x1 ![0] bcast_S850000_S850000x1_0 (wrap s)))
    (Host.gather gather_S50000_S850000x1_S850000_n_0_n_n_0_1_1 di (broadcastInDim S850000x1 ![0] bcast_S850000_S850000x1_0 (wrap d)))

theorem normOf_eq_normWith (s d : IVec S850000 32) : normOf (F := F) s d = normWith (dinv d) s d := rfl

/-- The features `h` sent along every edge with weight `nrm` and added up at the destinations. -/
def aggOf (nrm : FVec F S850000 .f32) (s d : IVec S850000 32) (h : FVec F S50000x128 .f32) : FVec F S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d)
    (mulf (broadcastInDim S850000x128 ![0, 1] bcast_S850000x1_S850000x128_0_1 (broadcastInDim S850000x1 ![0] bcast_S850000_S850000x1_0 nrm)) (Host.gather gather_S50000x128_S850000x1_S850000x128_1_0_n_n_0_1_1128 h (broadcastInDim S850000x1 ![0] bcast_S850000_S850000x1_0 (wrap s))))

/-! ## The two spellings are one -/

theorem srcOf_eq (ei : IVec S2x800000 32) : srcOf ei = Cert.ReferenceIdeal.Spec.srcOf ei := rfl
theorem dstOf_eq (ei : IVec S2x800000 32) : dstOf ei = Cert.ReferenceIdeal.Spec.dstOf ei := rfl
theorem wrap_eq (s : IVec S850000 32) : wrap s = Cert.ReferenceIdeal.Spec.wrap s := rfl
theorem deg_eq (d : IVec S850000 32) : deg (F := F) d = Cert.ReferenceIdeal.Spec.deg d := rfl
theorem dinv_eq (d : IVec S850000 32) : dinv (F := F) d = Cert.ReferenceIdeal.Spec.dinv d := by
  unfold dinv Cert.ReferenceIdeal.Spec.dinv; rw [deg_eq]
theorem normOf_eq (s d : IVec S850000 32) : normOf (F := F) s d = Cert.ReferenceIdeal.Spec.normOf s d := by
  unfold normOf Cert.ReferenceIdeal.Spec.normOf; rw [dinv_eq, wrap_eq, wrap_eq]; rfl
theorem aggOf_eq (nrm : FVec F S850000 .f32) (s d : IVec S850000 32) (h : FVec F S50000x128 .f32) :
    aggOf nrm s d h = Cert.ReferenceIdeal.Spec.aggOf nrm s d h := by
  unfold aggOf Cert.ReferenceIdeal.Spec.aggOf; rw [wrap_eq]; rfl
/-- The edge weights from the edge list, in the two spellings. -/
theorem norm_eq (ei : IVec S2x800000 32) :
    normOf (F := F) (srcOf ei) (dstOf ei) = Cert.ReferenceIdeal.Spec.normOf (Cert.ReferenceIdeal.Spec.srcOf ei) (Cert.ReferenceIdeal.Spec.dstOf ei) := by
  rw [normOf_eq, srcOf_eq, dstOf_eq]

end Cert.KernelIdeal.Spec

end
-- ==== Proof.KWalkA.lean ====
import proofs.«122393_j6803228196877_1_alg».proof.Proof.Gen.KernelIdeal.Frame
import proofs.«122393_j6803228196877_1_alg».proof.Proof.KSpec

/-!
  The kernel program's buffers at the first region's entry: the edge ends, the edge weights and the arguments, each host operation read from the launch contents.
-/

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem
open Cert.ReferenceIdeal (Spec.srcOf Spec.dstOf Spec.normOf Spec.aggOf Spec.conv Spec.out)

variable {F : FTy → Type} [FloatOps F]
variable (m : (ℓ : Loc nD τ sig) → Buf (Elt F) ℓ) (ρ : Dev nD → PrngReg) (c : Dev nD)

/-! ## The first stretch: the edge ends, and the sign and inverse root of the degrees -/

theorem w1_v5 : W1 m ρ c (Proc.devRef .tc main_v5) = Cert.KernelIdeal.Spec.srcOf (m ((c : Thread nD τ).loc main_arg1)) := by
  show StableHlo.after hostOps0 (W0 m ρ c) (Proc.devRef .tc main_v5) = _
  dsimp only [hostOps0]
  after_results
  rfl

theorem w1_v6 : W1 m ρ c (Proc.devRef .tc main_v6) = Cert.KernelIdeal.Spec.dstOf (m ((c : Thread nD τ).loc main_arg1)) := by
  show StableHlo.after hostOps0 (W0 m ρ c) (Proc.devRef .tc main_v6) = _
  dsimp only [hostOps0]
  after_results
  rfl

set_option maxHeartbeats 1000000 in
theorem w1_v12 : W1 m ρ c (Proc.devRef .tc main_v12) = cmpf (F := F) .ogt (Cert.KernelIdeal.Spec.deg (Cert.KernelIdeal.Spec.dstOf (m ((c : Thread nD τ).loc main_arg1)))) (broadcastInDim S50000 ![] bcast_S_S50000 (constant S_ .f32 0x00000000#32)) := by
  show StableHlo.after hostOps0 (W0 m ρ c) (Proc.devRef .tc main_v12) = _
  dsimp only [hostOps0]
  after_results
  rfl

set_option maxHeartbeats 1000000 in
theorem w1_v13 : W1 m ρ c (Proc.devRef .tc main_v13) = Host.rsqrt (Cert.KernelIdeal.Spec.deg (F := F) (Cert.KernelIdeal.Spec.dstOf (m ((c : Thread nD τ).loc main_arg1)))) := by
  show StableHlo.after hostOps0 (W0 m ρ c) (Proc.devRef .tc main_v13) = _
  dsimp only [hostOps0]
  after_results
  rfl

theorem w1_cst2 : W1 m ρ c (Proc.devRef .tc main_cst_2) = constant (F := F) S_ .f32 0x00000000#32 := by
  show StableHlo.after hostOps0 (W0 m ρ c) (Proc.devRef .tc main_cst_2) = _
  dsimp only [hostOps0]
  after_results
  try rfl

/-! ## The second stretch: the inverse root degrees, zero where the degree is not positive -/

theorem w2_v14 : W2 m ρ c (Proc.devRef .tc main_v14) = Cert.KernelIdeal.Spec.dinv (F := F) (Cert.KernelIdeal.Spec.dstOf (m ((c : Thread nD τ).loc main_arg1))) := by
  have e12 := w1_v12 m ρ c
  have e13 := w1_v13 m ρ c
  have ec := w1_cst2 m ρ c
  show StableHlo.after hostOps0_1 (W1 m ρ c) (Proc.devRef .tc main_v14) = _
  generalize W1 m ρ c = L at e12 e13 ec ⊢
  dsimp only [hostOps0_1]
  after_results
  rw [e12, e13, ec]
  rfl

theorem w2_v5 : W2 m ρ c (Proc.devRef .tc main_v5) = W1 m ρ c (Proc.devRef .tc main_v5) := by
  show StableHlo.after hostOps0_1 (W1 m ρ c) (Proc.devRef .tc main_v5) = _
  generalize W1 m ρ c = L
  dsimp only [hostOps0_1]
  after_results

theorem w2_v6 : W2 m ρ c (Proc.devRef .tc main_v6) = W1 m ρ c (Proc.devRef .tc main_v6) := by
  show StableHlo.after hostOps0_1 (W1 m ρ c) (Proc.devRef .tc main_v6) = _
  generalize W1 m ρ c = L
  dsimp only [hostOps0_1]
  after_results

/-! ## The third stretch: the edge weights -/

set_option maxHeartbeats 2000000 in
theorem w3_v29 : W3 m ρ c (Proc.devRef .tc main_v29) = Cert.KernelIdeal.Spec.normOf (F := F) (Cert.KernelIdeal.Spec.srcOf (m ((c : Thread nD τ).loc main_arg1))) (Cert.KernelIdeal.Spec.dstOf (m ((c : Thread nD τ).loc main_arg1))) := by
  have e14 := w2_v14 m ρ c
  have e5 := (w2_v5 m ρ c).trans (w1_v5 m ρ c)
  have e6 := (w2_v6 m ρ c).trans (w1_v6 m ρ c)
  show StableHlo.after hostOps0_2 (W2 m ρ c) (Proc.devRef .tc main_v29) = _
  generalize W2 m ρ c = L at e14 e5 e6 ⊢
  dsimp only [hostOps0_2]
  after_results
  rw [e14, e5, e6]
  rfl

theorem w3_v5c : W3 m ρ c (Proc.devRef .tc main_v5) = W2 m ρ c (Proc.devRef .tc main_v5) := by
  show StableHlo.after hostOps0_2 (W2 m ρ c) (Proc.devRef .tc main_v5) = _
  generalize W2 m ρ c = L
  dsimp only [hostOps0_2]
  after_results

theorem w3_v6c : W3 m ρ c (Proc.devRef .tc main_v6) = W2 m ρ c (Proc.devRef .tc main_v6) := by
  show StableHlo.after hostOps0_2 (W2 m ρ c) (Proc.devRef .tc main_v6) = _
  generalize W2 m ρ c = L
  dsimp only [hostOps0_2]
  after_results

theorem w3_v5 : W3 m ρ c (Proc.devRef .tc main_v5) = Cert.KernelIdeal.Spec.srcOf (m ((c : Thread nD τ).loc main_arg1)) := (w3_v5c m ρ c).trans ((w2_v5 m ρ c).trans (w1_v5 m ρ c))

theorem w3_v6 : W3 m ρ c (Proc.devRef .tc main_v6) = Cert.KernelIdeal.Spec.dstOf (m ((c : Thread nD τ).loc main_arg1)) := (w3_v6c m ρ c).trans ((w2_v6 m ρ c).trans (w1_v6 m ρ c))

/-! ## No host operation of the three stretches writes an argument -/

theorem w3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results
  try rfl

theorem w3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results
  try rfl

theorem w3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results
  try rfl

theorem w3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results
  try rfl

theorem w3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results
  try rfl

theorem w3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results
  try rfl

theorem w3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0_2, hostOps0_1, hostOps0]
  after_results
  try rfl

end Cert.KernelIdeal.Walk

end
-- ==== Proof.KWalkB.lean ====
import proofs.«122393_j6803228196877_1_alg».proof.Proof.Gen.KernelIdeal.Frame
import proofs.«122393_j6803228196877_1_alg».proof.Proof.KSpec

/-!
  The kernel program's buffers from the first region's exit to the second region's exit: a region leaves every buffer but its own arrays as it found them, and the first aggregation is read operation by operation.
-/

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem
open Cert.ReferenceIdeal (Spec.srcOf Spec.dstOf Spec.normOf Spec.aggOf Spec.conv Spec.out)

variable {F : FTy → Type} [FloatOps F]
variable (m : (ℓ : Loc nD τ sig) → Buf (Elt F) ℓ) (ρ : Dev nD → PrngReg) (c : Dev nD)

/-! ## Across region 0, then the first aggregation -/

theorem w4_v5 : W4 m ρ c (Proc.devRef .tc main_v5) = W3 m ρ c (Proc.devRef .tc main_v5) := W4_of_ne m ρ c main_v5 (by decide)

theorem w4_v6 : W4 m ρ c (Proc.devRef .tc main_v6) = W3 m ρ c (Proc.devRef .tc main_v6) := W4_of_ne m ρ c main_v6 (by decide)

theorem w4_v29 : W4 m ρ c (Proc.devRef .tc main_v29) = W3 m ρ c (Proc.devRef .tc main_v29) := W4_of_ne m ρ c main_v29 (by decide)

theorem w4_arg3 : W4 m ρ c (Proc.devRef .tc main_arg3) = W3 m ρ c (Proc.devRef .tc main_arg3) := W4_of_ne m ρ c main_arg3 (by decide)

theorem w4_arg4 : W4 m ρ c (Proc.devRef .tc main_arg4) = W3 m ρ c (Proc.devRef .tc main_arg4) := W4_of_ne m ρ c main_arg4 (by decide)

theorem w4_arg5 : W4 m ρ c (Proc.devRef .tc main_arg5) = W3 m ρ c (Proc.devRef .tc main_arg5) := W4_of_ne m ρ c main_arg5 (by decide)

theorem w4_arg6 : W4 m ρ c (Proc.devRef .tc main_arg6) = W3 m ρ c (Proc.devRef .tc main_arg6) := W4_of_ne m ρ c main_arg6 (by decide)

theorem w4_arg7 : W4 m ρ c (Proc.devRef .tc main_arg7) = W3 m ρ c (Proc.devRef .tc main_arg7) := W4_of_ne m ρ c main_arg7 (by decide)

theorem w4_v30 : W4 m ρ c (Proc.devRef .tc main_v30) = (dat0 (V3 m ρ) c).arrAt 2 cfg0.N := W4_arr m ρ c 2

set_option maxHeartbeats 2000000 in
theorem w5_v43 : W5 m ρ c (Proc.devRef .tc main_v43) = Cert.ReferenceIdeal.Spec.aggOf (F := F) (W4 m ρ c (Proc.devRef .tc main_v29)) (W4 m ρ c (Proc.devRef .tc main_v5)) (W4 m ρ c (Proc.devRef .tc main_v6)) (W4 m ρ c (Proc.devRef .tc main_v30)) := by
  show StableHlo.after hostOps1 (W4 m ρ c) (Proc.devRef .tc main_v43) = _
  dsimp only [hostOps1]
  after_results
  exact Cert.KernelIdeal.Spec.aggOf_eq _ _ _ _

theorem w5_v44 : W5 m ρ c (Proc.devRef .tc main_v44) = shapeCast S1x128 (W4 m ρ c (Proc.devRef .tc main_arg3)) shapeCasts_S128_S1x128 := by
  show StableHlo.after hostOps1 (W4 m ρ c) (Proc.devRef .tc main_v44) = _
  dsimp only [hostOps1]
  after_results
  try rfl

theorem w5_v5 : W5 m ρ c (Proc.devRef .tc main_v5) = W4 m ρ c (Proc.devRef .tc main_v5) := by
  show StableHlo.after hostOps1 (W4 m ρ c) (Proc.devRef .tc main_v5) = _
  dsimp only [hostOps1]
  after_results
  try rfl

theorem w5_v6 : W5 m ρ c (Proc.devRef .tc main_v6) = W4 m ρ c (Proc.devRef .tc main_v6) := by
  show StableHlo.after hostOps1 (W4 m ρ c) (Proc.devRef .tc main_v6) = _
  dsimp only [hostOps1]
  after_results
  try rfl

theorem w5_arg4 : W5 m ρ c (Proc.devRef .tc main_arg4) = W4 m ρ c (Proc.devRef .tc main_arg4) := by
  show StableHlo.after hostOps1 (W4 m ρ c) (Proc.devRef .tc main_arg4) = _
  dsimp only [hostOps1]
  after_results
  try rfl

theorem w5_arg5 : W5 m ρ c (Proc.devRef .tc main_arg5) = W4 m ρ c (Proc.devRef .tc main_arg5) := by
  show StableHlo.after hostOps1 (W4 m ρ c) (Proc.devRef .tc main_arg5) = _
  dsimp only [hostOps1]
  after_results
  try rfl

theorem w5_arg6 : W5 m ρ c (Proc.devRef .tc main_arg6) = W4 m ρ c (Proc.devRef .tc main_arg6) := by
  show StableHlo.after hostOps1 (W4 m ρ c) (Proc.devRef .tc main_arg6) = _
  dsimp only [hostOps1]
  after_results
  try rfl

theorem w5_arg7 : W5 m ρ c (Proc.devRef .tc main_arg7) = W4 m ρ c (Proc.devRef .tc main_arg7) := by
  show StableHlo.after hostOps1 (W4 m ρ c) (Proc.devRef .tc main_arg7) = _
  dsimp only [hostOps1]
  after_results
  try rfl

/-! ## Across region 1, then the edge weights again -/

theorem w6_v5 : W6 m ρ c (Proc.devRef .tc main_v5) = W5 m ρ c (Proc.devRef .tc main_v5) := W6_of_ne m ρ c main_v5 (by decide)

theorem w6_v6 : W6 m ρ c (Proc.devRef .tc main_v6) = W5 m ρ c (Proc.devRef .tc main_v6) := W6_of_ne m ρ c main_v6 (by decide)

theorem w6_arg4 : W6 m ρ c (Proc.devRef .tc main_arg4) = W5 m ρ c (Proc.devRef .tc main_arg4) := W6_of_ne m ρ c main_arg4 (by decide)

theorem w6_arg5 : W6 m ρ c (Proc.devRef .tc main_arg5) = W5 m ρ c (Proc.devRef .tc main_arg5) := W6_of_ne m ρ c main_arg5 (by decide)

theorem w6_arg6 : W6 m ρ c (Proc.devRef .tc main_arg6) = W5 m ρ c (Proc.devRef .tc main_arg6) := W6_of_ne m ρ c main_arg6 (by decide)

theorem w6_arg7 : W6 m ρ c (Proc.devRef .tc main_arg7) = W5 m ρ c (Proc.devRef .tc main_arg7) := W6_of_ne m ρ c main_arg7 (by decide)

theorem w6_v45 : W6 m ρ c (Proc.devRef .tc main_v45) = (dat1 (V5 m ρ) c).arrAt 2 cfg1.N := W6_arr m ρ c 2

end Cert.KernelIdeal.Walk

end
-- ==== Proof.KWalkC.lean ====
import proofs.«122393_j6803228196877_1_alg».proof.Proof.Gen.KernelIdeal.Frame
import proofs.«122393_j6803228196877_1_alg».proof.Proof.KSpec

/-!
  The kernel program's buffers from the second region's exit to the third region's exit: the edge weights are computed again from the same edge ends.
-/

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem
open Cert.ReferenceIdeal (Spec.srcOf Spec.dstOf Spec.normOf Spec.aggOf Spec.conv Spec.out)

variable {F : FTy → Type} [FloatOps F]
variable (m : (ℓ : Loc nD τ sig) → Buf (Elt F) ℓ) (ρ : Dev nD → PrngReg) (c : Dev nD)

/-! ## After region 1: the sign and inverse root of the degrees, again from the destinations -/

set_option maxHeartbeats 1000000 in
theorem w7_v51 : W7 m ρ c (Proc.devRef .tc main_v51) = cmpf (F := F) .ogt (Cert.KernelIdeal.Spec.deg (W6 m ρ c (Proc.devRef .tc main_v6))) (broadcastInDim S50000 ![] bcast_S_S50000 (constant S_ .f32 0x00000000#32)) := by
  show StableHlo.after hostOps2 (W6 m ρ c) (Proc.devRef .tc main_v51) = _
  dsimp only [hostOps2]
  after_results
  rfl

set_option maxHeartbeats 1000000 in
theorem w7_v52 : W7 m ρ c (Proc.devRef .tc main_v52) = Host.rsqrt (Cert.KernelIdeal.Spec.deg (F := F) (W6 m ρ c (Proc.devRef .tc main_v6))) := by
  show StableHlo.after hostOps2 (W6 m ρ c) (Proc.devRef .tc main_v52) = _
  dsimp only [hostOps2]
  after_results
  rfl

theorem w7_cst12 : W7 m ρ c (Proc.devRef .tc main_cst_12) = constant (F := F) S_ .f32 0x00000000#32 := by
  show StableHlo.after hostOps2 (W6 m ρ c) (Proc.devRef .tc main_cst_12) = _
  dsimp only [hostOps2]
  after_results
  try rfl

theorem w7_v5 : W7 m ρ c (Proc.devRef .tc main_v5) = W6 m ρ c (Proc.devRef .tc main_v5) := by
  show StableHlo.after hostOps2 (W6 m ρ c) (Proc.devRef .tc main_v5) = _
  dsimp only [hostOps2]
  after_results

theorem w7_v6 : W7 m ρ c (Proc.devRef .tc main_v6) = W6 m ρ c (Proc.devRef .tc main_v6) := by
  show StableHlo.after hostOps2 (W6 m ρ c) (Proc.devRef .tc main_v6) = _
  dsimp only [hostOps2]
  after_results

/-! ## The inverse root degrees -/

theorem w8_v53 : W8 m ρ c (Proc.devRef .tc main_v53) = Cert.KernelIdeal.Spec.dinv (F := F) (W6 m ρ c (Proc.devRef .tc main_v6)) := by
  have e51 := w7_v51 m ρ c
  have e52 := w7_v52 m ρ c
  have ec := w7_cst12 m ρ c
  show StableHlo.after hostOps2_1 (W7 m ρ c) (Proc.devRef .tc main_v53) = _
  generalize W7 m ρ c = L at e51 e52 ec ⊢
  dsimp only [hostOps2_1]
  after_results
  rw [e51, e52, ec]
  rfl

theorem w8_v5 : W8 m ρ c (Proc.devRef .tc main_v5) = W7 m ρ c (Proc.devRef .tc main_v5) := by
  show StableHlo.after hostOps2_1 (W7 m ρ c) (Proc.devRef .tc main_v5) = _
  generalize W7 m ρ c = L
  dsimp only [hostOps2_1]
  after_results

theorem w8_v6 : W8 m ρ c (Proc.devRef .tc main_v6) = W7 m ρ c (Proc.devRef .tc main_v6) := by
  show StableHlo.after hostOps2_1 (W7 m ρ c) (Proc.devRef .tc main_v6) = _
  generalize W7 m ρ c = L
  dsimp only [hostOps2_1]
  after_results

/-! ## The edge weights -/

set_option maxHeartbeats 2000000 in
theorem w9_v68 : W9 m ρ c (Proc.devRef .tc main_v68) = Cert.KernelIdeal.Spec.normOf (F := F) (W6 m ρ c (Proc.devRef .tc main_v5)) (W6 m ρ c (Proc.devRef .tc main_v6)) := by
  have e53 := w8_v53 m ρ c
  have e5 := (w8_v5 m ρ c).trans (w7_v5 m ρ c)
  have e6 := (w8_v6 m ρ c).trans (w7_v6 m ρ c)
  show StableHlo.after hostOps2_2 (W8 m ρ c) (Proc.devRef .tc main_v68) = _
  generalize W8 m ρ c = L at e53 e5 e6 ⊢
  dsimp only [hostOps2_2]
  after_results
  rw [e53, e5, e6]
  rfl

/-! ## What the three stretches leave alone -/

theorem w9_v5 : W9 m ρ c (Proc.devRef .tc main_v5) = W6 m ρ c (Proc.devRef .tc main_v5) := by
  show StableHlo.after hostOps2_2 (StableHlo.after hostOps2_1 (StableHlo.after hostOps2 (W6 m ρ c))) (Proc.devRef .tc main_v5) = _
  dsimp only [hostOps2_2, hostOps2_1, hostOps2]
  after_results
  try rfl

theorem w9_v6 : W9 m ρ c (Proc.devRef .tc main_v6) = W6 m ρ c (Proc.devRef .tc main_v6) := by
  show StableHlo.after hostOps2_2 (StableHlo.after hostOps2_1 (StableHlo.after hostOps2 (W6 m ρ c))) (Proc.devRef .tc main_v6) = _
  dsimp only [hostOps2_2, hostOps2_1, hostOps2]
  after_results
  try rfl

theorem w9_v45 : W9 m ρ c (Proc.devRef .tc main_v45) = W6 m ρ c (Proc.devRef .tc main_v45) := by
  show StableHlo.after hostOps2_2 (StableHlo.after hostOps2_1 (StableHlo.after hostOps2 (W6 m ρ c))) (Proc.devRef .tc main_v45) = _
  dsimp only [hostOps2_2, hostOps2_1, hostOps2]
  after_results
  try rfl

theorem w9_arg4 : W9 m ρ c (Proc.devRef .tc main_arg4) = W6 m ρ c (Proc.devRef .tc main_arg4) := by
  show StableHlo.after hostOps2_2 (StableHlo.after hostOps2_1 (StableHlo.after hostOps2 (W6 m ρ c))) (Proc.devRef .tc main_arg4) = _
  dsimp only [hostOps2_2, hostOps2_1, hostOps2]
  after_results
  try rfl

theorem w9_arg5 : W9 m ρ c (Proc.devRef .tc main_arg5) = W6 m ρ c (Proc.devRef .tc main_arg5) := by
  show StableHlo.after hostOps2_2 (StableHlo.after hostOps2_1 (StableHlo.after hostOps2 (W6 m ρ c))) (Proc.devRef .tc main_arg5) = _
  dsimp only [hostOps2_2, hostOps2_1, hostOps2]
  after_results
  try rfl

theorem w9_arg6 : W9 m ρ c (Proc.devRef .tc main_arg6) = W6 m ρ c (Proc.devRef .tc main_arg6) := by
  show StableHlo.after hostOps2_2 (StableHlo.after hostOps2_1 (StableHlo.after hostOps2 (W6 m ρ c))) (Proc.devRef .tc main_arg6) = _
  dsimp only [hostOps2_2, hostOps2_1, hostOps2]
  after_results
  try rfl

theorem w9_arg7 : W9 m ρ c (Proc.devRef .tc main_arg7) = W6 m ρ c (Proc.devRef .tc main_arg7) := by
  show StableHlo.after hostOps2_2 (StableHlo.after hostOps2_1 (StableHlo.after hostOps2 (W6 m ρ c))) (Proc.devRef .tc main_arg7) = _
  dsimp only [hostOps2_2, hostOps2_1, hostOps2]
  after_results
  try rfl

/-! ## Across region 2, then the second aggregation -/

theorem w10_v5 : W10 m ρ c (Proc.devRef .tc main_v5) = W9 m ρ c (Proc.devRef .tc main_v5) := W10_of_ne m ρ c main_v5 (by decide)

theorem w10_v6 : W10 m ρ c (Proc.devRef .tc main_v6) = W9 m ρ c (Proc.devRef .tc main_v6) := W10_of_ne m ρ c main_v6 (by decide)

theorem w10_v45 : W10 m ρ c (Proc.devRef .tc main_v45) = W9 m ρ c (Proc.devRef .tc main_v45) :=
  (W10_arr m ρ c 0).trans (((dat2 (V9 m ρ) c).arrAt_in 0 rfl _).trans (A_eq2 (V9 m ρ) c 0))

theorem w10_v68 : W10 m ρ c (Proc.devRef .tc main_v68) = W9 m ρ c (Proc.devRef .tc main_v68) := W10_of_ne m ρ c main_v68 (by decide)

theorem w10_arg5 : W10 m ρ c (Proc.devRef .tc main_arg5) = W9 m ρ c (Proc.devRef .tc main_arg5) := W10_of_ne m ρ c main_arg5 (by decide)

theorem w10_arg6 : W10 m ρ c (Proc.devRef .tc main_arg6) = W9 m ρ c (Proc.devRef .tc main_arg6) := W10_of_ne m ρ c main_arg6 (by decide)

theorem w10_arg7 : W10 m ρ c (Proc.devRef .tc main_arg7) = W9 m ρ c (Proc.devRef .tc main_arg7) := W10_of_ne m ρ c main_arg7 (by decide)

theorem w10_v69 : W10 m ρ c (Proc.devRef .tc main_v69) = (dat2 (V9 m ρ) c).arrAt 2 cfg2.N := W10_arr m ρ c 2

end Cert.KernelIdeal.Walk

end
-- ==== Proof.KWalkD.lean ====
import proofs.«122393_j6803228196877_1_alg».proof.Proof.Gen.KernelIdeal.Frame
import proofs.«122393_j6803228196877_1_alg».proof.Proof.KSpec

/-!
  The kernel program's buffers from the third region's exit to the return: the second aggregation, the two layers side by side, the last region's output.
-/

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem
open Cert.ReferenceIdeal (Spec.srcOf Spec.dstOf Spec.normOf Spec.aggOf Spec.conv Spec.out)

variable {F : FTy → Type} [FloatOps F]
variable (m : (ℓ : Loc nD τ sig) → Buf (Elt F) ℓ) (ρ : Dev nD → PrngReg) (c : Dev nD)

set_option maxHeartbeats 2000000 in
theorem w11_v82 : W11 m ρ c (Proc.devRef .tc main_v82) = Cert.ReferenceIdeal.Spec.aggOf (F := F) (W10 m ρ c (Proc.devRef .tc main_v68)) (W10 m ρ c (Proc.devRef .tc main_v5)) (W10 m ρ c (Proc.devRef .tc main_v6)) (W10 m ρ c (Proc.devRef .tc main_v69)) := by
  show StableHlo.after hostOps3 (W10 m ρ c) (Proc.devRef .tc main_v82) = _
  dsimp only [hostOps3]
  after_results
  exact Cert.KernelIdeal.Spec.aggOf_eq _ _ _ _

theorem w11_v83 : W11 m ρ c (Proc.devRef .tc main_v83) = shapeCast S1x128 (W10 m ρ c (Proc.devRef .tc main_arg5)) shapeCasts_S128_S1x128 := by
  show StableHlo.after hostOps3 (W10 m ρ c) (Proc.devRef .tc main_v83) = _
  dsimp only [hostOps3]
  after_results
  try rfl

theorem w11_v45 : W11 m ρ c (Proc.devRef .tc main_v45) = W10 m ρ c (Proc.devRef .tc main_v45) := by
  show StableHlo.after hostOps3 (W10 m ρ c) (Proc.devRef .tc main_v45) = _
  dsimp only [hostOps3]
  after_results
  try rfl

theorem w11_arg6 : W11 m ρ c (Proc.devRef .tc main_arg6) = W10 m ρ c (Proc.devRef .tc main_arg6) := by
  show StableHlo.after hostOps3 (W10 m ρ c) (Proc.devRef .tc main_arg6) = _
  dsimp only [hostOps3]
  after_results
  try rfl

theorem w11_arg7 : W11 m ρ c (Proc.devRef .tc main_arg7) = W10 m ρ c (Proc.devRef .tc main_arg7) := by
  show StableHlo.after hostOps3 (W10 m ρ c) (Proc.devRef .tc main_arg7) = _
  dsimp only [hostOps3]
  after_results
  try rfl

/-! ## Across region 3, the two layers side by side, region 4 -/

theorem w12_v45 : W12 m ρ c (Proc.devRef .tc main_v45) = W11 m ρ c (Proc.devRef .tc main_v45) := W12_of_ne m ρ c main_v45 (by decide)

theorem w12_arg6 : W12 m ρ c (Proc.devRef .tc main_arg6) = W11 m ρ c (Proc.devRef .tc main_arg6) := W12_of_ne m ρ c main_arg6 (by decide)

theorem w12_arg7 : W12 m ρ c (Proc.devRef .tc main_arg7) = W11 m ρ c (Proc.devRef .tc main_arg7) := W12_of_ne m ρ c main_arg7 (by decide)

theorem w12_v84 : W12 m ρ c (Proc.devRef .tc main_v84) = (dat3 (V11 m ρ) c).arrAt 2 cfg3.N := W12_arr m ρ c 2

theorem w13_v85 : W13 m ρ c (Proc.devRef .tc main_v85) = concatenate S50000x256 1 [⟨S50000x128, (W12 m ρ c (Proc.devRef .tc main_v45))⟩, ⟨S50000x128, (W12 m ρ c (Proc.devRef .tc main_v84))⟩] concatenates_S50000x128_S50000x128_S50000x256_d1 := by
  show StableHlo.after hostOps4 (W12 m ρ c) (Proc.devRef .tc main_v85) = _
  dsimp only [hostOps4]
  after_results
  try rfl

theorem w13_v86 : W13 m ρ c (Proc.devRef .tc main_v86) = shapeCast S1x128 (W12 m ρ c (Proc.devRef .tc main_arg7)) shapeCasts_S128_S1x128 := by
  show StableHlo.after hostOps4 (W12 m ρ c) (Proc.devRef .tc main_v86) = _
  dsimp only [hostOps4]
  after_results
  try rfl

theorem w13_arg6 : W13 m ρ c (Proc.devRef .tc main_arg6) = W12 m ρ c (Proc.devRef .tc main_arg6) := by
  show StableHlo.after hostOps4 (W12 m ρ c) (Proc.devRef .tc main_arg6) = _
  dsimp only [hostOps4]
  after_results
  try rfl

theorem w14_v87 : W14 m ρ c (Proc.devRef .tc main_v87) = (dat4 (V13 m ρ) c).arrAt 3 cfg4.N := W14_arr m ρ c 3

end Cert.KernelIdeal.Walk

end
-- ==== Proof.RegionMatmul.lean ====
import proofs.«122393_j6803228196877_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

namespace Matmul

/-! ## The arithmetic, over vectors of the literal shapes -/

theorem origin_zero : (![0, 0] : Fin 2 → Nat) = fun _ => 0 := funext fun a => by fin_cases a <;> rfl

/-- Region 0's stored value: the rounding to bf16 is the identity at the ideal values, and a product accumulated into
    the zero matrix is the product. -/
theorem pay0_eq (x0 : Vec Ideal S5000x128 .f32) (x1 : Vec Ideal S128x128 .f32) :
    k0_pay1 x0 x1 = Host.dotGeneral (F := Ideal) (φ₁ := .f32) (φ₂ := .f32) (DotDims.plain 5000 128 128) none x0 x1 := by
  unfold k0_pay1
  exact matmul_zero_eq_dotGeneral (DotDims.plain 5000 128 128) none x0 x1

/-- Region 2's stored value: the same product, its left factor first cast to its own shape. -/
theorem pay2_eq (x0 : Vec Ideal S5000x128 .f32) (x1 : Vec Ideal S128x128 .f32) :
    k2_pay1 x0 x1 = Host.dotGeneral (F := Ideal) (φ₁ := .f32) (φ₂ := .f32) (DotDims.plain 5000 128 128) none x0 x1 := by
  unfold k2_pay1
  rw [shapeCast_self]
  exact matmul_zero_eq_dotGeneral (DotDims.plain 5000 128 128) none x0 x1

/-- A row of a product depends on that row of the left factor only: if row `p` of `x0` is row `r` of `A` and column
    `q` of `x1` is column `q` of `B`, entry `(p, q)` of `x0 · x1` is entry `(r, q)` of `A · B` — both are the sum over
    the 128 contracted coordinates of the same products. -/
theorem block_product (A : FVec Ideal S50000x128 .f32) (B : FVec Ideal S128x128 .f32)
    (x0 : Vec Ideal S5000x128 .f32) (x1 : Vec Ideal S128x128 .f32) (r : Fin 50000) (p : Fin 5000) (q : Fin 128)
    (h0 : ∀ c : Fin 128, x0 (ix2 p c) = A (ix2 r c)) (h1 : ∀ c : Fin 128, x1 (ix2 c q) = B (ix2 c q)) :
    Host.dotGeneral (F := Ideal) (φ₁ := .f32) (φ₂ := .f32) (DotDims.plain 5000 128 128) none x0 x1 (ix2 p q)
      = Host.dotGeneral (F := Ideal) (φ₁ := .f32) (φ₂ := .f32) (DotDims.plain 50000 128 128) none A B (ix2 r q) := by
  rw [StackMember.dotGeneral_plain_apply, StackMember.dotGeneral_plain_apply]
  exact Finset.sum_congr rfl fun c _ => by rw [h0 c, h1 c]

/-- The same, at indices given with their coordinates. -/
theorem block_product_at (A : FVec Ideal S50000x128 .f32) (B : FVec Ideal S128x128 .f32)
    (x0 : Vec Ideal S5000x128 .f32) (x1 : Vec Ideal S128x128 .f32) (jb : S5000x128.Idx) (i : S50000x128.Idx)
    (r : Fin 50000) (p : Fin 5000) (q : Fin 128) (hjb : jb = ix2 p q) (hi : i = ix2 r q)
    (h0 : ∀ c : Fin 128, x0 (ix2 p c) = A (ix2 r c)) (h1 : ∀ c : Fin 128, x1 (ix2 c q) = B (ix2 c q)) :
    Host.dotGeneral (F := Ideal) (φ₁ := .f32) (φ₂ := .f32) (DotDims.plain 5000 128 128) none x0 x1 jb
      = Host.dotGeneral (F := Ideal) (φ₁ := .f32) (φ₂ := .f32) (DotDims.plain 50000 128 128) none A B i := by
  subst hjb hi
  exact block_product A B x0 x1 r p q h0 h1

/-! ## Region 0: `[50000,128] · [128,128]`, ten row blocks of 5000 -/

/-- The block indices of region 0, decided over its ten grid points: the left factor's and the output's blocks are
    block row `t` (column block 0), the right factor's one block is the whole matrix. -/
theorem idx_rel0 : ∀ t : Fin cfg0.N, win0_0.index t (0 : Fin 2) = t.val
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is rows `5000 t … 5000 t + 4999` of the product of the two input arrays: the left factor's
    block at `t` is those rows of its array, the right factor's block is its whole array. -/
theorem flushed0_eq (c : Dev nD) (t : Fin cfg0.N) :
    (dat0 V c).flushed 2 t = ((cfg0.win 2).blk t).view.read (Elt Ideal)
      (Host.dotGeneral (F := Ideal) (φ₁ := .f32) (φ₂ := .f32) (DotDims.plain 50000 128 128) none (V c main_arg0) (V c main_arg2)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x128) origin_zero]
  rw [pay0_eq]
  obtain ⟨e0, e1, e2, e3, e4, e5⟩ := idx_rel0 t
  funext j
  have hj0 : (j 0).val < 5000 := (j 0).isLt
  have hj1 : (j 1).val < 128 := (j 1).isLt
  have ht : t.val < 10 := t.isLt
  show Host.dotGeneral (F := Ideal) (φ₁ := .f32) (φ₂ := .f32) (DotDims.plain 5000 128 128) none (iblk0 V c 0 t) (iblk0 V c 1 t) ((cfg0.win 2).xinj (grid0.coords t) j)
    = Host.dotGeneral (F := Ideal) (φ₁ := .f32) (φ₂ := .f32) (DotDims.plain 50000 128 128) none (V c main_arg0) (V c main_arg2) (((cfg0.win 2).blk t).view.emb j)
  refine block_product_at (V c main_arg0) (V c main_arg2) (iblk0 V c 0 t) (iblk0 V c 1 t) _ _
    ⟨t.val * 5000 + (j 0).val, by omega⟩ ⟨(j 0).val, hj0⟩ ⟨(j 1).val, hj1⟩ ?_ ?_ ?_ ?_
  · funext a; apply Fin.ext
    match a with
    | ⟨0, _⟩ => rfl
    | ⟨1, _⟩ => rfl
  · funext a; apply Fin.ext
    match a with
    | ⟨0, _⟩ => show win0_2.index t (0 : Fin 2) * 5000 + 1 * (j 0).val = t.val * 5000 + (j 0).val; omega
    | ⟨1, _⟩ => show win0_2.index t (1 : Fin 2) * 128 + 1 * (j 1).val = (j 1).val; omega
  · intro k
    show V c main_arg0 (((cfg0.win 0).blk t).view.emb (ix2 ⟨(j 0).val, hj0⟩ k)) = V c main_arg0 (ix2 ⟨t.val * 5000 + (j 0).val, by omega⟩ k)
    refine congrArg _ (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  · intro k
    show V c main_arg2 (((cfg0.win 1).blk t).view.emb (ix2 k ⟨(j 1).val, hj1⟩)) = V c main_arg2 (ix2 k ⟨(j 1).val, hj1⟩)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row of the output is in the block of the point `row / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by show (i 0).val / 5000 < 10; omega⟩, flush0_2 _, ?_⟩
  rw [mem_blk0]
  obtain ⟨e0, e1, e2, e3, e4, e5⟩ := idx_rel0 ⟨(i 0).val / 5000, by show (i 0).val / 5000 < 10; omega⟩
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, _⟩ (1 : Fin 2) * 128 ≤ (i 1).val ∧ (i 1).val < win0_2.index ⟨(i 0).val / 5000, _⟩ (1 : Fin 2) * 128 + 128
    rw [e5]; omega

/-! ## Region 2: the same product of the second layer's arrays -/

/-- The block indices of region 2, decided over its ten grid points: the left factor's and the output's blocks are
    block row `t` (column block 0), the right factor's one block is the whole matrix. -/
theorem idx_rel2 : ∀ t : Fin cfg2.N, win2_0.index t (0 : Fin 2) = t.val
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is rows `5000 t … 5000 t + 4999` of the product of the two input arrays: the left factor's
    block at `t` is those rows of its array, the right factor's block is its whole array. -/
theorem flushed2_eq (c : Dev nD) (t : Fin cfg2.N) :
    (dat2 V c).flushed 2 t = ((cfg2.win 2).blk t).view.read (Elt Ideal)
      (Host.dotGeneral (F := Ideal) (φ₁ := .f32) (φ₂ := .f32) (DotDims.plain 50000 128 128) none (V c main_v45) (V c main_arg4)) := by
  show (cfg2.win 2).cut (grid2.coords t) ((dat2 V c).after 2 t) = _
  rw [after2_2]
  unfold out2_2
  rw [View.canon_unit_zero origin_zero]
  simp only [View.ld_unit_zero (S := S5000x128) origin_zero, View.ld_unit_zero (S := S128x128) origin_zero]
  rw [pay2_eq]
  obtain ⟨e0, e1, e2, e3, e4, e5⟩ := idx_rel2 t
  funext j
  have hj0 : (j 0).val < 5000 := (j 0).isLt
  have hj1 : (j 1).val < 128 := (j 1).isLt
  have ht : t.val < 10 := t.isLt
  show Host.dotGeneral (F := Ideal) (φ₁ := .f32) (φ₂ := .f32) (DotDims.plain 5000 128 128) none (iblk2 V c 0 t) (iblk2 V c 1 t) ((cfg2.win 2).xinj (grid2.coords t) j)
    = Host.dotGeneral (F := Ideal) (φ₁ := .f32) (φ₂ := .f32) (DotDims.plain 50000 128 128) none (V c main_v45) (V c main_arg4) (((cfg2.win 2).blk t).view.emb j)
  refine block_product_at (V c main_v45) (V c main_arg4) (iblk2 V c 0 t) (iblk2 V c 1 t) _ _
    ⟨t.val * 5000 + (j 0).val, by omega⟩ ⟨(j 0).val, hj0⟩ ⟨(j 1).val, hj1⟩ ?_ ?_ ?_ ?_
  · funext a; apply Fin.ext
    match a with
    | ⟨0, _⟩ => rfl
    | ⟨1, _⟩ => rfl
  · funext a; apply Fin.ext
    match a with
    | ⟨0, _⟩ => show win2_2.index t (0 : Fin 2) * 5000 + 1 * (j 0).val = t.val * 5000 + (j 0).val; omega
    | ⟨1, _⟩ => show win2_2.index t (1 : Fin 2) * 128 + 1 * (j 1).val = (j 1).val; omega
  · intro k
    show V c main_v45 (((cfg2.win 0).blk t).view.emb (ix2 ⟨(j 0).val, hj0⟩ k)) = V c main_v45 (ix2 ⟨t.val * 5000 + (j 0).val, by omega⟩ k)
    refine congrArg _ (funext fun a => Fin.ext ?_)
    match a with
    | ⟨0, _⟩ => show win2_0.index t (0 : Fin 2) * 5000 + 1 * (j 0).val = t.val * 5000 + (j 0).val; omega
    | ⟨1, _⟩ => show win2_0.index t (1 : Fin 2) * 128 + 1 * k.val = k.val; omega
  · intro k
    show V c main_arg4 (((cfg2.win 1).blk t).view.emb (ix2 k ⟨(j 1).val, hj1⟩)) = V c main_arg4 (ix2 k ⟨(j 1).val, hj1⟩)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = (j 1).val; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v69).slice (win2_2.rect t)).set ↔ _
  rw [View.set_slice_whole, Rect.mem_set_unit]
  exact Iff.rfl

/-- Every row of the output is in the block of the point `row / 5000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by show (i 0).val / 5000 < 10; omega⟩, flush2_2 _, ?_⟩
  rw [mem_blk2]
  obtain ⟨e0, e1, e2, e3, e4, e5⟩ := idx_rel2 ⟨(i 0).val / 5000, by show (i 0).val / 5000 < 10; omega⟩
  intro a
  match a with
  | ⟨0, _⟩ =>
    show win2_2.index ⟨(i 0).val / 5000, _⟩ (0 : Fin 2) * 5000 ≤ (i 0).val ∧ (i 0).val < win2_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, _⟩ (1 : Fin 2) * 128 ≤ (i 1).val ∧ (i 1).val < win2_2.index ⟨(i 0).val / 5000, _⟩ (1 : Fin 2) * 128 + 128
    rw [e5]; omega

end Matmul

/-! ## The two regions' output arrays -/

/-- THE OUTPUT ARRAY after the ten write-backs is the product of the two input arrays. -/
theorem region0_value (c : Dev nD) :
    (dat0 V c).arrAt 2 cfg0.N
      = Host.dotGeneral (F := Ideal) (φ₁ := .f32) (φ₂ := .f32) (DotDims.plain 50000 128 128) none (V c main_arg0) (V c main_arg2) :=
  (dat0 V c).arrAt_eq_of_cover 2 _ (fun t _ => Matmul.flushed0_eq V c t) Matmul.cover0

/-- THE OUTPUT ARRAY after the ten write-backs is the product of the two input arrays. -/
theorem region2_value (c : Dev nD) :
    (dat2 V c).arrAt 2 cfg2.N
      = Host.dotGeneral (F := Ideal) (φ₁ := .f32) (φ₂ := .f32) (DotDims.plain 50000 128 128) none (V c main_v45) (V c main_arg4) :=
  (dat2 V c).arrAt_eq_of_cover 2 _ (fun t _ => Matmul.flushed2_eq V c t) Matmul.cover2

end Cert.KernelIdeal.RegionValue

end
-- ==== Proof.RegionBiasRelu.lean ====
import proofs.«122393_j6803228196877_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.ValueIdx

/-- A one-row matrix may be laid down the 50000 rows of a [50000, 128] matrix. -/
theorem rows_relu : S1x128.BroadcastsInDim S50000x128 (![0, 1] : Fin 2 → Fin S50000x128.rank) := by decide

variable (V : (c : Dev nD) → (b : Ref sig .tc) → Buf (Elt Ideal) ((c : Thread nD τ).loc b))

namespace BiasRelu

/-! ## One block of the bias-and-cut-off, element by element

Both regions run the same body on a [5000, 128] block `x0` of the input and the whole [1, 128] bias row `x1`:
`max (x0 + x1 laid down the rows) 0`. At (p, q) that is `max (x0 (p, q) + x1 (0, q)) 0`, and the whole-array
operation at (r, q) is `max (A (r, q) + R (0, q)) 0`; the two agree when the block's (p, q) is the array's (r, q). -/

theorem origin_zero : (![0, 0] : Fin 2 → Nat) = fun _ => 0 := funext fun a => by fin_cases a <;> rfl

/-- One block of the kernel: the input block plus the bias row laid down its rows, cut off below at zero. -/
def biasReluBlock (x0 : Vec Ideal S5000x128 .f32) (x1 : Vec Ideal S1x128 .f32) : Vec Ideal S5000x128 .f32 :=
  maximumf (F := Ideal) (addf (shapeCast S5000x128 x0 shapeCasts_S5000x128_S5000x128)
      (broadcastTo S5000x128 (shapeCast S1x128 x1 shapeCasts_S1x128_S1x128) broadcasts_S1x128_S5000x128))
    (broadcast S5000x128 (Scalar.ofBits (F := Ideal) .f32 0x00000000#32))

/-- The two regions' payloads are that block. -/
theorem pay1_eq (x0 : Vec Ideal S5000x128 .f32) (x1 : Vec Ideal S1x128 .f32) : k1_pay1 (F := Ideal) x0 x1 = biasReluBlock x0 x1 := rfl
theorem pay3_eq (x0 : Vec Ideal S5000x128 .f32) (x1 : Vec Ideal S1x128 .f32) : k3_pay1 (F := Ideal) x0 x1 = biasReluBlock x0 x1 := rfl

/-- The block at (p, q) is `max (x0 (p, q) + x1 (0, q)) 0`: the casts to the same shape are the identity, and the
    bias row laid down the rows reads its column `q`. -/
theorem biasReluBlock_apply (x0 : Vec Ideal S5000x128 .f32) (x1 : Vec Ideal S1x128 .f32) (p : Fin 5000) (q : Fin 128) :
    biasReluBlock x0 x1 (ix2 p q)
      = max (x0 (ix2 p q) + x1 (ix2 (0 : Fin 1) q)) (Scalar.ofBits (F := Ideal) .f32 0x00000000#32) := by
  unfold biasReluBlock
  rw [shapeCast_self, shapeCast_self]
  show max (x0 (ix2 p q) + broadcastTo S5000x128 x1 broadcasts_S1x128_S5000x128 (ix2 p q)) _ = _
  rw [broadcastTo_apply x1 broadcasts_S1x128_S5000x128 (ix2 p q) (ix2 (0 : Fin 1) q) (by
    intro a
    match a with
    | ⟨0, _⟩ => rfl
    | ⟨1, _⟩ => rfl)]
  rfl

/-- A block's element against the whole array's: where the block's (p, q) is the array's (r, q) and the block's bias
    row is the array's, the kernel's block at (p, q) is the whole-array bias-and-cut-off at (r, q). -/
theorem biasRelu_at (A : S50000x128.Idx → Ideal .f32) (R : S1x128.Idx → Ideal .f32)
    (x0 : Vec Ideal S5000x128 .f32) (x1 : Vec Ideal S1x128 .f32) (p : Fin 5000) (q : Fin 128) (r : Fin 50000)
    (h0 : x0 (ix2 p q) = A (ix2 r q)) (h1 : x1 (ix2 (0 : Fin 1) q) = R (ix2 (0 : Fin 1) q)) :
    biasReluBlock x0 x1 (ix2 p q)
      = maximumf (F := Ideal) (addf A (broadcastInDim S50000x128 ![0, 1] rows_relu R))
          (broadcast S50000x128 (Scalar.ofBits (F := Ideal) .f32 0x00000000#32)) (ix2 r q) := by
  rw [biasReluBlock_apply, h0, h1]
  show _ = max (A (ix2 r q) + broadcastInDim S50000x128 ![0, 1] rows_relu R (ix2 r q)) _
  rw [broadcastInDim_oneRow_apply rows_relu R r q]
  rfl

/-! ## Region 1: what each point writes back, the rows covered, the array -/

/-- The index maps of region 1 over its ten points: the input's and the output's block at point `t` is row
    block `t`, column block 0; the bias row's one block is at (0, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows `5000 t … 5000 t + 4999` of the whole-array bias-and-cut-off: element
    (p, q) of every block sits at row `5000 t + p`, column `q` of its array, and the bias row is read whole. -/
theorem writeback1_eq (c : Dev nD) (t : Fin cfg1.N) :
    (dat1 V c).flushed 2 t = ((cfg1.win 2).blk t).view.read (Elt Ideal)
      (maximumf (F := Ideal) (addf (V c main_v43) (broadcastInDim S50000x128 ![0, 1] rows_relu (V c main_v44)))
          (broadcast S50000x128 (Scalar.ofBits (F := Ideal) .f32 0x00000000#32))) := by
  show (cfg1.win 2).cut (grid1.coords t) ((dat1 V c).after 2 t) = _
  rw [after1_2]
  unfold out1_2
  rw [View.canon_unit_zero origin_zero]
  simp only [View.ld_unit_zero (S := S5000x128) origin_zero, View.ld_unit_zero (S := S1x128) origin_zero]
  rw [pay1_eq]
  obtain ⟨e00, e01, e10, e11, e20, e21⟩ := block_index1 t
  have ht : t.val < 10 := lt_of_lt_of_eq t.isLt (show cfg1.N = 10 from N_1)
  funext j
  obtain ⟨p, q, rfl⟩ : ∃ (p : Fin 5000) (q : Fin 128), j = ix2 p q := ⟨j 0, j 1, eq_ix2 j⟩
  have hr : t.val * 5000 + p.val < 50000 := by have := p.isLt; omega
  have h2 : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have h0 : ((cfg1.win 0).blk t).view.emb (ix2 p q) = ix2 (⟨t.val * 5000 + p.val, hr⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  show biasReluBlock (iblk1 V c 0 t) (iblk1 V c 1 t) (ix2 p q)
      = maximumf (F := Ideal) (addf (V c main_v43) (broadcastInDim S50000x128 ![0, 1] rows_relu (V c main_v44)))
          (broadcast S50000x128 (Scalar.ofBits (F := Ideal) .f32 0x00000000#32)) (((cfg1.win 2).blk t).view.emb (ix2 p q))
  rw [h2]
  exact biasRelu_at (V c main_v43) (V c main_v44) (iblk1 V c 0 t) (iblk1 V c 1 t) p q ⟨t.val * 5000 + p.val, hr⟩
    (by show V c main_v43 (((cfg1.win 0).blk t).view.emb (ix2 p q)) = _; rw [h0])
    (by show V c main_v44 (((cfg1.win 1).blk t).view.emb (ix2 (0 : Fin 1) q)) = _; rw [h1])

/-- An index of the output array is in point `t`'s block iff each coordinate is in the block's range on its axis. -/
theorem mem_rows1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row `r` of the output is written back by point `r / 5000`: the ten blocks of 5000 rows fill the 50000 rows. -/
theorem rows_covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_2 _, ?_⟩
  obtain ⟨e00, e01, e10, e11, e20, e21⟩ := block_index1 ⟨(i 0).val / 5000, hN⟩
  have e20' : win1_2.index ⟨(i 0).val / 5000, hN⟩ (0 : Fin 2) = (i 0).val / 5000 := e20
  rw [mem_rows1]
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 128 ≤ (i 1).val ∧ (i 1).val < win1_2.index ⟨(i 0).val / 5000, hN⟩ (1 : Fin 2) * 128 + 128; omega

/-! ## Region 3: what each point writes back, the rows covered, the array -/

/-- The index maps of region 3 over its ten points: the input's and the output's block at point `t` is row
    block `t`, column block 0; the bias row's one block is at (0, 0). -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is rows `5000 t … 5000 t + 4999` of the whole-array bias-and-cut-off: element
    (p, q) of every block sits at row `5000 t + p`, column `q` of its array, and the bias row is read whole. -/
theorem writeback3_eq (c : Dev nD) (t : Fin cfg3.N) :
    (dat3 V c).flushed 2 t = ((cfg3.win 2).blk t).view.read (Elt Ideal)
      (maximumf (F := Ideal) (addf (V c main_v82) (broadcastInDim S50000x128 ![0, 1] rows_relu (V c main_v83)))
          (broadcast S50000x128 (Scalar.ofBits (F := Ideal) .f32 0x00000000#32))) := by
  show (cfg3.win 2).cut (grid3.coords t) ((dat3 V c).after 2 t) = _
  rw [after3_2]
  unfold out3_2
  rw [View.canon_unit_zero origin_zero]
  simp only [View.ld_unit_zero (S := S5000x128) origin_zero, View.ld_unit_zero (S := S1x128) origin_zero]
  rw [pay3_eq]
  obtain ⟨e00, e01, e10, e11, e20, e21⟩ := block_index3 t
  have ht : t.val < 10 := lt_of_lt_of_eq t.isLt (show cfg3.N = 10 from N_3)
  funext j
  obtain ⟨p, q, rfl⟩ : ∃ (p : Fin 5000) (q : Fin 128), j = ix2 p q := ⟨j 0, j 1, eq_ix2 j⟩
  have hr : t.val * 5000 + p.val < 50000 := by have := p.isLt; omega
  have h2 : ((cfg3.win 2).blk t).view.emb (ix2 p q) = ix2 (⟨t.val * 5000 + p.val, hr⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  have h0 : ((cfg3.win 0).blk t).view.emb (ix2 p q) = ix2 (⟨t.val * 5000 + p.val, hr⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  show biasReluBlock (iblk3 V c 0 t) (iblk3 V c 1 t) (ix2 p q)
      = maximumf (F := Ideal) (addf (V c main_v82) (broadcastInDim S50000x128 ![0, 1] rows_relu (V c main_v83)))
          (broadcast S50000x128 (Scalar.ofBits (F := Ideal) .f32 0x00000000#32)) (((cfg3.win 2).blk t).view.emb (ix2 p q))
  rw [h2]
  exact biasRelu_at (V c main_v82) (V c main_v83) (iblk3 V c 0 t) (iblk3 V c 1 t) p q ⟨t.val * 5000 + p.val, hr⟩
    (by show V c main_v82 (((cfg3.win 0).blk t).view.emb (ix2 p q)) = _; rw [h0])
    (by show V c main_v83 (((cfg3.win 1).blk t).view.emb (ix2 (0 : Fin 1) q)) = _; rw [h1])

/-- An index of the output array is in point `t`'s block iff each coordinate is in the block's range on its axis. -/
theorem mem_rows3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v84).slice (win3_2.rect t)).set ↔ _
  rw [View.set_slice_whole, Rect.mem_set_unit]
  exact Iff.rfl

/-- Row `r` of the output is written back by point `r / 5000`: the ten blocks of 5000 rows fill the 50000 rows. -/
theorem rows_covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : (i 0).val / 5000 < cfg3.N := by rw [show cfg3.N = 10 from N_3]; omega
  refine ⟨⟨(i 0).val / 5000, hN⟩, flush3_2 _, ?_⟩
  obtain ⟨e00, e01, e10, e11, e20, e21⟩ := block_index3 ⟨(i 0).val / 5000, hN⟩
  have e20' : win3_2.index ⟨(i 0).val / 5000, hN⟩ (0 : Fin 2) = (i 0).val / 5000 := e20
  rw [mem_rows3]
  intro a
  match a with
  | ⟨0, _⟩ => show win3_2.index ⟨(i 0).val / 5000, hN⟩ (0 : Fin 2) * 5000 ≤ (i 0).val ∧ (i 0).val < win3_2.index ⟨(i 0).val / 5000, hN⟩ (0 : Fin 2) * 5000 + 5000; omega
  | ⟨1, _⟩ => show win3_2.index ⟨(i 0).val / 5000, hN⟩ (1 : Fin 2) * 128 ≤ (i 1).val ∧ (i 1).val < win3_2.index ⟨(i 0).val / 5000, hN⟩ (1 : Fin 2) * 128 + 128; omega

end BiasRelu

theorem region1_value (c : Dev nD) :
    (dat1 V c).arrAt 2 cfg1.N
      = maximumf (F := Ideal) (addf (V c main_v43) (broadcastInDim S50000x128 ![0, 1] rows_relu (V c main_v44)))
          (broadcast S50000x128 (Scalar.ofBits (F := Ideal) .f32 0x00000000#32)) := by
  exact (dat1 V c).arrAt_eq_of_cover 2 _ (fun t _ => BiasRelu.writeback1_eq V c t) BiasRelu.rows_covered1

theorem region3_value (c : Dev nD) :
    (dat3 V c).arrAt 2 cfg3.N
      = maximumf (F := Ideal) (addf (V c main_v82) (broadcastInDim S50000x128 ![0, 1] rows_relu (V c main_v83)))
          (broadcast S50000x128 (Scalar.ofBits (F := Ideal) .f32 0x00000000#32)) := by
  exact (dat3 V c).arrAt_eq_of_cover 2 _ (fun t _ => BiasRelu.writeback3_eq V c t) BiasRelu.rows_covered3

end Cert.KernelIdeal.RegionValue

end
-- ==== Proof.RegionMatmulBias.lean ====
import proofs.«122393_j6803228196877_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.ValueIdx

/-- A one-row matrix may be laid down the 50000 rows of a [50000, 128] matrix. -/
theorem rows_lin : S1x128.BroadcastsInDim S50000x128 (![0, 1] : Fin 2 → Fin S50000x128.rank) := by decide

/-! ## The body's value at an index of its block -/

/-- The product of a [5000, 256] block by the [256, 128] weight, accumulated into zero, at row `p` and column `q`:
    the sum over the 256 contracted coordinates of the products of the entries. -/
theorem blockProduct_apply (A : FVec Ideal S5000x256 .bf16) (B : FVec Ideal S256x128 .bf16) (p : Fin 5000) (q : Fin 128) :
    matmul dot_S5000x256_S256x128_S5000x128_1_0_0_1_n_n none A B (constant (F := Ideal) S5000x128 .f32 0x00000000#32) (ix2 p q)
      = ∑ k : Fin 256, A (ix2 p k) * B (ix2 k q) := by
  rw [matmul_zero_eq_dotGeneral]
  exact StackMember.dotGeneral_plain_apply (m := 5000) (n := 128) (k := 256) none A B p q

/-- The one-row bias laid down the 5000 rows of a block reads, at row `p` and column `q`, the row's entry `q`. -/
theorem blockBias_apply (b : Vec Ideal S1x128 .f32) (p : Fin 5000) (q : Fin 128) :
    broadcastTo S5000x128 (shapeCast S1x128 b Facts₀.shapeCasts_S1x128_S1x128) Facts₀.broadcasts_S1x128_S5000x128 (ix2 p q)
      = b (ix2 (0 : Fin 1) q) := by
  rw [shapeCast_self]
  refine broadcastTo_apply b Facts₀.broadcasts_S1x128_S5000x128 (ix2 p q) (ix2 (0 : Fin 1) q) ?_
  intro a
  match a with
  | ⟨0, _⟩ => rfl
  | ⟨1, _⟩ => rfl

/-- The body's result at row `p`, column `q` of its block: the block's row `p` times the weight's column `q`, plus the
    bias row's entry `q`. -/
theorem body_apply (x0 : Vec Ideal S5000x256 .f32) (x1 : Vec Ideal S256x128 .f32) (x2 : Vec Ideal S1x128 .f32)
    (p : Fin 5000) (q : Fin 128) :
    k4_pay1 (F := Ideal) x0 x1 x2 (ix2 p q)
      = (∑ k : Fin 256, x0 (ix2 p k) * x1 (ix2 k q)) + x2 (ix2 (0 : Fin 1) q) := by
  unfold k4_pay1
  refine (congrArg₂ (· + ·) (blockProduct_apply _ _ p q) (blockBias_apply x2 p q)).trans ?_
  rw [shapeCast_self]
  rfl

/-! ## The array the region leaves, at an index -/

/-- The [50000, 256] input times the [256, 128] weight, plus the one-row bias laid down the 50000 rows. -/
def wholeValue (A : FVec Ideal S50000x256 .f32) (W : FVec Ideal S256x128 .f32) (R : S1x128.Idx → Ideal .f32) :
    S50000x128.Idx → Ideal .f32 :=
  addf (F := Ideal) (Host.dotGeneral (F := Ideal) (φ₁ := .f32) (φ₂ := .f32) (DotDims.plain 50000 256 128) none A W)
    (broadcastInDim S50000x128 ![0, 1] rows_lin R)

/-- At row `r` and column `q`: the input's row `r` times the weight's column `q`, plus the bias row's entry `q`. -/
theorem wholeValue_apply (A : FVec Ideal S50000x256 .f32) (W : FVec Ideal S256x128 .f32) (R : S1x128.Idx → Ideal .f32)
    (r : Fin 50000) (q : Fin 128) :
    wholeValue A W R (ix2 r q) = (∑ k : Fin 256, A (ix2 r k) * W (ix2 k q)) + R (ix2 (0 : Fin 1) q) :=
  congrArg₂ (· + ·) (StackMember.dotGeneral_plain_apply none A W r q) (broadcastInDim_oneRow_apply rows_lin R r q)

/-- A block whose rows are rows `n * 5000 + p` of the input, with the whole weight and the whole bias row, gives at
    (`p`, `q`) the array's value at (`n * 5000 + p`, `q`). -/
theorem body_eq_wholeValue (A : FVec Ideal S50000x256 .f32) (W : FVec Ideal S256x128 .f32) (R : S1x128.Idx → Ideal .f32)
    (x0 : Vec Ideal S5000x256 .f32) (x1 : Vec Ideal S256x128 .f32) (x2 : Vec Ideal S1x128 .f32)
    (r : Fin 50000) (p : Fin 5000) (q : Fin 128)
    (h0 : ∀ k : Fin 256, x0 (ix2 p k) = A (ix2 r k))
    (h1 : ∀ k : Fin 256, x1 (ix2 k q) = W (ix2 k q))
    (h2 : x2 (ix2 (0 : Fin 1) q) = R (ix2 (0 : Fin 1) q)) :
    k4_pay1 (F := Ideal) x0 x1 x2 (ix2 p q) = wholeValue A W R (ix2 r q) := by
  rw [body_apply, wholeValue_apply, h2]
  exact congrArg (· + R (ix2 (0 : Fin 1) q)) (Finset.sum_congr rfl fun k _ => by rw [h0 k, h1 k])

theorem zero_offsets : (![0, 0] : Fin 2 → Nat) = fun _ => 0 := funext fun a => by fin_cases a <;> rfl

/-! ## The windows' block indices over the grid -/

/-- The printed index maps, decided over the ten points: the input's block moves down the rows with the output's,
    point `t` at block `t`; the weight and the bias row stay at their one block. -/
theorem blockIndex_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point `t` writes back is block `t` of the array the region leaves. -/
theorem writeBack_eq (c : Dev nD) (t : Fin cfg4.N) :
    (dat4 V c).flushed 3 t = ((cfg4.win 3).blk t).view.read (Elt Ideal)
      (wholeValue (V c main_v85) (V c main_arg6) (V c main_v86)) := by
  show (cfg4.win 3).cut (grid4.coords t) ((dat4 V c).after 3 t) = _
  rw [after4_3]
  unfold out4_3
  rw [View.canon_unit_zero zero_offsets]
  simp only [View.ld_unit_zero (S := S5000x256) zero_offsets, View.ld_unit_zero (S := S256x128) zero_offsets, View.ld_unit_zero (S := S1x128) zero_offsets]
  obtain ⟨e00, e01, e10, e11, e20, e21, e30, e31⟩ := blockIndex_facts t
  have ht : t.val < 10 := Nat.lt_of_lt_of_eq t.isLt N_4
  funext j
  obtain ⟨p, q, rfl⟩ : ∃ (p : Fin 5000) (q : Fin 128), j = ix2 p q := ⟨j 0, j 1, eq_ix2 j⟩
  have hp : p.val < 5000 := p.isLt
  show k4_pay1 (F := Ideal) (iblk4 V c 0 t) (iblk4 V c 1 t) (iblk4 V c 2 t) (ix2 p q)
    = wholeValue (V c main_v85) (V c main_arg6) (V c main_v86) (((cfg4.win 3).blk t).view.emb (ix2 p q))
  have hidx : ((cfg4.win 3).blk t).view.emb (ix2 p q) = ix2 (⟨t.val * 5000 + p.val, by omega⟩ : Fin 50000) q := by
    funext a; apply Fin.ext
    match a with
    | ⟨0, _⟩ => show win4_3.index t (0 : Fin 2) * 5000 + 1 * p.val = t.val * 5000 + p.val; omega
    | ⟨1, _⟩ => show win4_3.index t (1 : Fin 2) * 128 + 1 * q.val = q.val; omega
  refine Eq.trans ?_ (congrArg (wholeValue (V c main_v85) (V c main_arg6) (V c main_v86)) hidx.symm)
  refine body_eq_wholeValue (V c main_v85) (V c main_arg6) (V c main_v86) (iblk4 V c 0 t) (iblk4 V c 1 t) (iblk4 V c 2 t)
    ⟨t.val * 5000 + p.val, by omega⟩ p q ?_ ?_ ?_
  · intro k
    show V c main_v85 (((cfg4.win 0).blk t).view.emb (ix2 p k)) = V c main_v85 (ix2 (⟨t.val * 5000 + p.val, by omega⟩ : Fin 50000) k)
    refine congrArg (V c main_v85) ?_
    funext a; apply Fin.ext
    match a with
    | ⟨0, _⟩ => show win4_0.index t (0 : Fin 2) * 5000 + 1 * p.val = t.val * 5000 + p.val; omega
    | ⟨1, _⟩ => show win4_0.index t (1 : Fin 2) * 256 + 1 * k.val = k.val; omega
  · intro k
    show V c main_arg6 (((cfg4.win 1).blk t).view.emb (ix2 k q)) = V c main_arg6 (ix2 k q)
    refine congrArg (V c main_arg6) ?_
    funext a; apply Fin.ext
    match a with
    | ⟨0, _⟩ => show win4_1.index t (0 : Fin 2) * 256 + 1 * k.val = k.val; omega
    | ⟨1, _⟩ => show win4_1.index t (1 : Fin 2) * 128 + 1 * q.val = q.val; omega
  · show V c main_v86 (((cfg4.win 2).blk t).view.emb (ix2 (0 : Fin 1) q)) = V c main_v86 (ix2 (0 : Fin 1) q)
    refine congrArg (V c main_v86) ?_
    funext a; apply Fin.ext
    match a with
    | ⟨0, _⟩ => show win4_2.index t (0 : Fin 2) * 1 + 1 * 0 = 0; omega
    | ⟨1, _⟩ => show win4_2.index t (1 : Fin 2) * 128 + 1 * q.val = q.val; omega

/-- An index of the array is in point `t`'s block iff each coordinate is in the block's range on its axis. -/
theorem mem_block (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v87).slice (win4_3.rect t)).set ↔ _
  rw [View.set_slice_whole, Rect.mem_set_unit]
  exact Iff.rfl

/-- Every index of the array is in the block of the point its row falls to: row `r` at point `r / 5000`. -/
theorem rows_covered (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hlt : (i 0).val / 5000 < cfg4.N := by rw [show cfg4.N = 10 from N_4]; omega
  obtain ⟨-, -, -, -, -, -, e30, e31⟩ := blockIndex_facts ⟨(i 0).val / 5000, hlt⟩
  have e30' : win4_3.index ⟨(i 0).val / 5000, hlt⟩ (0 : Fin 2) = (i 0).val / 5000 := e30
  refine ⟨⟨(i 0).val / 5000, hlt⟩, flush4_3 _, ?_⟩
  rw [mem_block]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    omega
  | ⟨1, _⟩ =>
    show win4_3.index ⟨(i 0).val / 5000, hlt⟩ (1 : Fin 2) * 128 ≤ (i 1).val
      ∧ (i 1).val < win4_3.index ⟨(i 0).val / 5000, hlt⟩ (1 : Fin 2) * 128 + 128
    omega

theorem region4_value (c : Dev nD) :
    (dat4 V c).arrAt 3 cfg4.N
      = addf (F := Ideal) (Host.dotGeneral (F := Ideal) (φ₁ := .f32) (φ₂ := .f32) (DotDims.plain 50000 256 128) none (V c main_v85) (V c main_arg6))
          (broadcastInDim S50000x128 ![0, 1] rows_lin (V c main_v86)) := by
  show _ = wholeValue (V c main_v85) (V c main_arg6) (V c main_v86)
  exact (dat4 V c).arrAt_eq_of_cover 3 (wholeValue (V c main_v85) (V c main_arg6) (V c main_v86))
    (fun t _ => writeBack_eq V c t) rows_covered

end Cert.KernelIdeal.RegionValue

end
-- ==== Proof.KValue.lean ====
import proofs.«122393_j6803228196877_1_alg».proof.Proof.KWalkA
import proofs.«122393_j6803228196877_1_alg».proof.Proof.KWalkB
import proofs.«122393_j6803228196877_1_alg».proof.Proof.KWalkC
import proofs.«122393_j6803228196877_1_alg».proof.Proof.KWalkD
import proofs.«122393_j6803228196877_1_alg».proof.Proof.RegionMatmul
import proofs.«122393_j6803228196877_1_alg».proof.Proof.RegionBiasRelu
import proofs.«122393_j6803228196877_1_alg».proof.Proof.RegionMatmulBias

/-!
  The kernel program's result at the ideal values, as the network `Spec.out` of its argument arrays: the buffers at
  each boundary (the walk) with each region's output array read as the whole-array operation it computes (a matrix
  product; a bias row added and the sum clipped at zero; a matrix product plus a bias row).
-/

set_option maxRecDepth 16384

noncomputable section

namespace Cert.KernelIdeal.Walk

open Cert.KernelIdeal Cert.KernelIdeal.Gen Cert.KernelIdeal.RegionValue
open Idealize.ShloMosaic Idealize.ShloMosaic.TcCoe Idealize.ShloMosaic.StableHlo Idealize.SL.Sem
open Cert.ReferenceIdeal (Spec.srcOf Spec.dstOf Spec.normOf Spec.aggOf Spec.conv Spec.out)

variable (m : (ℓ : Loc nD τ sig) → Buf (Elt Ideal) ℓ) (ρ : Dev nD → PrngReg) (c : Dev nD)

/-- The zero array a layer clips at, as the kernel spells it: the splat of the scalar zero. -/
abbrev zeroK : FVec Ideal S50000x128 .f32 := broadcast S50000x128 (Scalar.ofBits (F := Ideal) .f32 0x00000000#32)
/-- A bias vector as the one-row matrix the kernel hands its regions. -/
abbrev rowK (b : FVec Ideal S128 .f32) : FVec Ideal S1x128 .f32 := shapeCast S1x128 b shapeCasts_S128_S1x128
/-- The edge list. -/
abbrev eiK : IVec S2x800000 32 := (m ((c : Thread nD τ).loc main_arg1))
/-- The first layer's matrix product. -/
abbrev h1K : FVec Ideal S50000x128 .f32 :=
  Host.dotGeneral (F := Ideal) (φ₁ := .f32) (φ₂ := .f32) (DotDims.plain 50000 128 128) none (m ((c : Thread nD τ).loc main_arg0)) (m ((c : Thread nD τ).loc main_arg2))
/-- The first layer. -/
abbrev x1K : FVec Ideal S50000x128 .f32 := Cert.ReferenceIdeal.Spec.conv (eiK m c) (h1K m c) (rowK (m ((c : Thread nD τ).loc main_arg3))) zeroK
/-- The second layer's matrix product. -/
abbrev h2K : FVec Ideal S50000x128 .f32 :=
  Host.dotGeneral (F := Ideal) (φ₁ := .f32) (φ₂ := .f32) (DotDims.plain 50000 128 128) none (x1K m c) (m ((c : Thread nD τ).loc main_arg4))
/-- The second layer. -/
abbrev x2K : FVec Ideal S50000x128 .f32 := Cert.ReferenceIdeal.Spec.conv (eiK m c) (h2K m c) (rowK (m ((c : Thread nD τ).loc main_arg5))) zeroK

/-! ## The edge ends and weights stay put from the first region's entry on -/

theorem s4 : W4 m ρ c (Proc.devRef .tc main_v5) = Cert.ReferenceIdeal.Spec.srcOf (eiK m c) := (w4_v5 m ρ c).trans ((w3_v5 m ρ c).trans (Cert.KernelIdeal.Spec.srcOf_eq _))
theorem d4 : W4 m ρ c (Proc.devRef .tc main_v6) = Cert.ReferenceIdeal.Spec.dstOf (eiK m c) := (w4_v6 m ρ c).trans ((w3_v6 m ρ c).trans (Cert.KernelIdeal.Spec.dstOf_eq _))
theorem n4 : W4 m ρ c (Proc.devRef .tc main_v29) = Cert.ReferenceIdeal.Spec.normOf (F := Ideal) (Cert.ReferenceIdeal.Spec.srcOf (eiK m c)) (Cert.ReferenceIdeal.Spec.dstOf (eiK m c)) := (w4_v29 m ρ c).trans ((w3_v29 m ρ c).trans (Cert.KernelIdeal.Spec.norm_eq _))
theorem s6 : W6 m ρ c (Proc.devRef .tc main_v5) = Cert.ReferenceIdeal.Spec.srcOf (eiK m c) := (w6_v5 m ρ c).trans ((w5_v5 m ρ c).trans (s4 m ρ c))
theorem d6 : W6 m ρ c (Proc.devRef .tc main_v6) = Cert.ReferenceIdeal.Spec.dstOf (eiK m c) := (w6_v6 m ρ c).trans ((w5_v6 m ρ c).trans (d4 m ρ c))
theorem s10 : W10 m ρ c (Proc.devRef .tc main_v5) = Cert.ReferenceIdeal.Spec.srcOf (eiK m c) := (w10_v5 m ρ c).trans ((w9_v5 m ρ c).trans (s6 m ρ c))
theorem d10 : W10 m ρ c (Proc.devRef .tc main_v6) = Cert.ReferenceIdeal.Spec.dstOf (eiK m c) := (w10_v6 m ρ c).trans ((w9_v6 m ρ c).trans (d6 m ρ c))

/-! ## The arguments where they are read -/

theorem a3_4 : W4 m ρ c (Proc.devRef .tc main_arg3) = (m ((c : Thread nD τ).loc main_arg3)) := (w4_arg3 m ρ c).trans (w3_arg3 m ρ c)
theorem a4_9 : W9 m ρ c (Proc.devRef .tc main_arg4) = (m ((c : Thread nD τ).loc main_arg4)) :=
  (w9_arg4 m ρ c).trans ((w6_arg4 m ρ c).trans ((w5_arg4 m ρ c).trans ((w4_arg4 m ρ c).trans (w3_arg4 m ρ c))))
theorem a5_10 : W10 m ρ c (Proc.devRef .tc main_arg5) = (m ((c : Thread nD τ).loc main_arg5)) :=
  (w10_arg5 m ρ c).trans ((w9_arg5 m ρ c).trans ((w6_arg5 m ρ c).trans ((w5_arg5 m ρ c).trans ((w4_arg5 m ρ c).trans (w3_arg5 m ρ c)))))
theorem a6_12 : W12 m ρ c (Proc.devRef .tc main_arg6) = (m ((c : Thread nD τ).loc main_arg6)) :=
  (w12_arg6 m ρ c).trans ((w11_arg6 m ρ c).trans ((w10_arg6 m ρ c).trans ((w9_arg6 m ρ c).trans ((w6_arg6 m ρ c).trans ((w5_arg6 m ρ c).trans ((w4_arg6 m ρ c).trans (w3_arg6 m ρ c)))))))
theorem a7_12 : W12 m ρ c (Proc.devRef .tc main_arg7) = (m ((c : Thread nD τ).loc main_arg7)) :=
  (w12_arg7 m ρ c).trans ((w11_arg7 m ρ c).trans ((w10_arg7 m ρ c).trans ((w9_arg7 m ρ c).trans ((w6_arg7 m ρ c).trans ((w5_arg7 m ρ c).trans ((w4_arg7 m ρ c).trans (w3_arg7 m ρ c)))))))

/-! ## The first layer -/

/-- Region 0 leaves the first matrix product. -/
theorem v30_4 : W4 m ρ c (Proc.devRef .tc main_v30) = h1K m c :=
  (w4_v30 m ρ c).trans ((region0_value (V3 m ρ) c).trans (by
    rw [show V3 m ρ c main_arg0 = (m ((c : Thread nD τ).loc main_arg0)) from w3_arg0 m ρ c, show V3 m ρ c main_arg2 = (m ((c : Thread nD τ).loc main_arg2)) from w3_arg2 m ρ c]))

theorem v43_5 : W5 m ρ c (Proc.devRef .tc main_v43) = Cert.ReferenceIdeal.Spec.aggOf (Cert.ReferenceIdeal.Spec.normOf (F := Ideal) (Cert.ReferenceIdeal.Spec.srcOf (eiK m c)) (Cert.ReferenceIdeal.Spec.dstOf (eiK m c))) (Cert.ReferenceIdeal.Spec.srcOf (eiK m c)) (Cert.ReferenceIdeal.Spec.dstOf (eiK m c)) (h1K m c) :=
  (w5_v43 m ρ c).trans (by rw [n4, s4, d4, v30_4])

theorem v44_5 : W5 m ρ c (Proc.devRef .tc main_v44) = rowK (m ((c : Thread nD τ).loc main_arg3)) := (w5_v44 m ρ c).trans (by rw [a3_4])

/-- Region 1 leaves the first layer. -/
theorem v45_6 : W6 m ρ c (Proc.devRef .tc main_v45) = x1K m c :=
  (w6_v45 m ρ c).trans ((region1_value (V5 m ρ) c).trans (by
    rw [show V5 m ρ c main_v43 = _ from v43_5 m ρ c, show V5 m ρ c main_v44 = _ from v44_5 m ρ c]; rfl))

/-! ## The second layer -/

theorem v68_9 : W9 m ρ c (Proc.devRef .tc main_v68) = Cert.ReferenceIdeal.Spec.normOf (F := Ideal) (Cert.ReferenceIdeal.Spec.srcOf (eiK m c)) (Cert.ReferenceIdeal.Spec.dstOf (eiK m c)) :=
  (w9_v68 m ρ c).trans (by rw [s6, d6]; exact Cert.KernelIdeal.Spec.normOf_eq _ _)

theorem v45_9 : W9 m ρ c (Proc.devRef .tc main_v45) = x1K m c := (w9_v45 m ρ c).trans (v45_6 m ρ c)

/-- Region 2 leaves the second matrix product. -/
theorem v69_10 : W10 m ρ c (Proc.devRef .tc main_v69) = h2K m c :=
  (w10_v69 m ρ c).trans ((region2_value (V9 m ρ) c).trans (by
    rw [show V9 m ρ c main_v45 = _ from v45_9 m ρ c, show V9 m ρ c main_arg4 = _ from a4_9 m ρ c]))

theorem v82_11 : W11 m ρ c (Proc.devRef .tc main_v82) = Cert.ReferenceIdeal.Spec.aggOf (Cert.ReferenceIdeal.Spec.normOf (F := Ideal) (Cert.ReferenceIdeal.Spec.srcOf (eiK m c)) (Cert.ReferenceIdeal.Spec.dstOf (eiK m c))) (Cert.ReferenceIdeal.Spec.srcOf (eiK m c)) (Cert.ReferenceIdeal.Spec.dstOf (eiK m c)) (h2K m c) :=
  (w11_v82 m ρ c).trans (by rw [w10_v68, v68_9, s10, d10, v69_10])

theorem v83_11 : W11 m ρ c (Proc.devRef .tc main_v83) = rowK (m ((c : Thread nD τ).loc main_arg5)) := (w11_v83 m ρ c).trans (by rw [a5_10])

/-- Region 3 leaves the second layer. -/
theorem v84_12 : W12 m ρ c (Proc.devRef .tc main_v84) = x2K m c :=
  (w12_v84 m ρ c).trans ((region3_value (V11 m ρ) c).trans (by
    rw [show V11 m ρ c main_v82 = _ from v82_11 m ρ c, show V11 m ρ c main_v83 = _ from v83_11 m ρ c]; rfl))

theorem v45_12 : W12 m ρ c (Proc.devRef .tc main_v45) = x1K m c :=
  (w12_v45 m ρ c).trans ((w11_v45 m ρ c).trans ((w10_v45 m ρ c).trans (v45_9 m ρ c)))

/-! ## The last matrix product -/

theorem v85_13 : W13 m ρ c (Proc.devRef .tc main_v85) = concatenate S50000x256 1 [⟨S50000x128, (x1K m c)⟩, ⟨S50000x128, (x2K m c)⟩] concatenates_S50000x128_S50000x128_S50000x256_d1 :=
  (w13_v85 m ρ c).trans (by rw [v45_12, v84_12])

theorem v86_13 : W13 m ρ c (Proc.devRef .tc main_v86) = rowK (m ((c : Thread nD τ).loc main_arg7)) := (w13_v86 m ρ c).trans (by rw [a7_12])

theorem a6_13 : W13 m ρ c (Proc.devRef .tc main_arg6) = (m ((c : Thread nD τ).loc main_arg6)) := (w13_arg6 m ρ c).trans (a6_12 m ρ c)

/-- THE KERNEL'S RESULT: the network of the argument arrays, the bias rows as one-row casts, the zero as a splat, the
    matrix products plain. -/
theorem result : V14 m ρ c main_v87
    = Cert.ReferenceIdeal.Spec.out (DotDims.plain 50000 128 128) (DotDims.plain 50000 256 128) (m ((c : Thread nD τ).loc main_arg0)) (m ((c : Thread nD τ).loc main_arg1)) (m ((c : Thread nD τ).loc main_arg2)) (rowK (m ((c : Thread nD τ).loc main_arg3)))
        (m ((c : Thread nD τ).loc main_arg4)) (rowK (m ((c : Thread nD τ).loc main_arg5))) (m ((c : Thread nD τ).loc main_arg6)) (rowK (m ((c : Thread nD τ).loc main_arg7))) zeroK :=
  (w14_v87 m ρ c).trans ((region4_value (V13 m ρ) c).trans (by
    rw [show V13 m ρ c main_v85 = _ from v85_13 m ρ c, show V13 m ρ c main_arg6 = _ from a6_13 m ρ c, show V13 m ρ c main_v86 = _ from v86_13 m ρ c]; rfl))

end Cert.KernelIdeal.Walk

end
-- ==== Proof.RefWalk.lean ====
import proofs.«122393_j6803228196877_1_alg».proof.Proof.RefRun
import proofs.«122393_j6803228196877_1_alg».proof.Proof.Spec

/-!
  The reference program's buffers after each stretch of its operations, as the shared host functions (`Spec`) of the
  argument arrays: the operation list is cut into nine stretches (the edge ends and the degrees; the inverse root
  degrees; the edge weights; the first layer; the same three again for the second layer, whose edge ends the
  reference builds a second time from the same rows; the second layer; the last linear layer), and each stretch is
  read operation by operation from the contents the stretch before it leaves.
-/

set_option maxRecDepth 16384

noncomputable section

namespace Cert.ReferenceIdeal.RefWalk

open Cert.ReferenceIdeal Cert.ReferenceIdeal.Gen
open Idealize.ShloMosaic Idealize.ShloMosaic.TcCoe Idealize.ShloMosaic.StableHlo Idealize.SL.Sem

variable {F : FTy → Type} [FloatOps F]

/-! ## The nine stretches of the operation list -/

/-- Operations 1 … 18 of @main. -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Operations 19 … 21 of @main. -/
abbrev ops2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 22 … 40 of @main. -/
abbrev ops3 : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Operations 41 … 63 of @main. -/
abbrev ops4 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v5 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v5 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v5 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v30 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v39 (broadcastInDim S850000x128 ![0, 1] bcast_S850000x1_S850000x128_0_1 : (⟨S850000x1, .f32⟩ : BufTy).Contents (Elt F) → (⟨S850000x128, .f32⟩ : BufTy).Contents (Elt F)),
    binary main_v39 main_v38 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 64 … 77 of @main. -/
abbrev ops5 : List (HloOp τ sig (Elt F)) :=
  [ nullary main_v48 (iotaInDim S50000 32 0),
    binary main_v1 main_v48 main_v49 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v48 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v51 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v52 (broadcastInDim S50000 ![] bcast_S_S50000 : (⟨S_, .f32⟩ : BufTy).Contents (Elt F) → (⟨S50000, .f32⟩ : BufTy).Contents (Elt F)),
    unary main_v50 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    unary main_v54 main_v57 (Host.rsqrt : (⟨S50000, .f32⟩ : BufTy).Contents (Elt F) → (⟨S50000, .f32⟩ : BufTy).Contents (Elt F)),
    nullary main_cst_12 (constant S_ .f32 0x00000000#32) ]

/-- Operations 78 … 80 of @main. -/
abbrev ops6 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v57) (TRef.of (T := ⟨S50000, .f32⟩) main_call2_v1) (TRef.of (T := ⟨S50000, .f32⟩) main_v58) select ]

/-- Operations 81 … 99 of @main. -/
abbrev ops7 : List (HloOp τ sig (Elt F)) :=
  [ nullary main_c_13 (constantI S_ 32 0#32),
    unary main_c_13 main_v59 (broadcastInDim S850000 ![] bcast_S_S850000 : (⟨S_, .i32⟩ : BufTy).Contents (Elt F) → (⟨S850000, .i32⟩ : BufTy).Contents (Elt F)),
    binary main_v49 main_v59 main_v60 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v61 (broadcastInDim S850000 ![] bcast_S_S850000 : (⟨S_, .i32⟩ : BufTy).Contents (Elt F) → (⟨S850000, .i32⟩ : BufTy).Contents (Elt F)),
    binary main_v49 main_v61 main_v62 (addi : (⟨S850000, .i32⟩ : BufTy).Contents (Elt F) → (⟨S850000, .i32⟩ : BufTy).Contents (Elt F) → (⟨S850000, .i32⟩ : BufTy).Contents (Elt F)),
    ternary main_v60 main_v62 main_v49 main_v63 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v63 main_v64 (broadcastInDim S850000x1 ![0] bcast_S850000_S850000x1_0 : (⟨S850000, .i32⟩ : BufTy).Contents (Elt F) → (⟨S850000x1, .i32⟩ : BufTy).Contents (Elt F)),
    binary main_v58 main_v64 main_v65 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v66 (broadcastInDim S850000 ![] bcast_S_S850000 : (⟨S_, .i32⟩ : BufTy).Contents (Elt F) → (⟨S850000, .i32⟩ : BufTy).Contents (Elt F)),
    binary main_v50 main_v66 main_v67 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v68 (broadcastInDim S850000 ![] bcast_S_S850000 : (⟨S_, .i32⟩ : BufTy).Contents (Elt F) → (⟨S850000, .i32⟩ : BufTy).Contents (Elt F)),
    binary main_v50 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v50 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v58 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v65 main_v72 main_v73 (mulf : (⟨S850000, .f32⟩ : BufTy).Contents (Elt F) → (⟨S850000, .f32⟩ : BufTy).Contents (Elt F) → (⟨S850000, .f32⟩ : BufTy).Contents (Elt F)) ]

/-- Operations 100 … 122 of @main. -/
abbrev ops8 : List (HloOp τ sig (Elt F)) :=
  [ binary main_v47 main_arg4 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v73 main_v75 (broadcastInDim S850000x1 ![0] bcast_S850000_S850000x1_0 : (⟨S850000, .f32⟩ : BufTy).Contents (Elt F) → (⟨S850000x1, .f32⟩ : BufTy).Contents (Elt F)),
    nullary main_c_17 (constantI S_ 32 0#32),
    unary main_c_17 main_v76 (broadcastInDim S850000 ![] bcast_S_S850000 : (⟨S_, .i32⟩ : BufTy).Contents (Elt F) → (⟨S850000, .i32⟩ : BufTy).Contents (Elt F)),
    binary main_v49 main_v76 main_v77 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v78 (broadcastInDim S850000 ![] bcast_S_S850000 : (⟨S_, .i32⟩ : BufTy).Contents (Elt F) → (⟨S850000, .i32⟩ : BufTy).Contents (Elt F)),
    binary main_v49 main_v78 main_v79 (addi : (⟨S850000, .i32⟩ : BufTy).Contents (Elt F) → (⟨S850000, .i32⟩ : BufTy).Contents (Elt F) → (⟨S850000, .i32⟩ : BufTy).Contents (Elt F)),
    ternary main_v77 main_v79 main_v49 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v80 main_v81 (broadcastInDim S850000x1 ![0] bcast_S850000_S850000x1_0 : (⟨S850000, .i32⟩ : BufTy).Contents (Elt F) → (⟨S850000x1, .i32⟩ : BufTy).Contents (Elt F)),
    binary main_v74 main_v81 main_v82 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v75 main_v83 (broadcastInDim S850000x128 ![0, 1] bcast_S850000x1_S850000x128_0_1 : (⟨S850000x1, .f32⟩ : BufTy).Contents (Elt F) → (⟨S850000x128, .f32⟩ : BufTy).Contents (Elt F)),
    binary main_v83 main_v82 main_v84 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v85 (broadcastInDim S50000x128 ![] bcast_S_S50000x128 : (⟨S_, .f32⟩ : BufTy).Contents (Elt F) → (⟨S50000x128, .f32⟩ : BufTy).Contents (Elt F)),
    unary main_v50 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v90) (TRef.of (T := ⟨S50000x128, .f32⟩) main_call3_v0) (TRef.of (T := ⟨S50000x128, .f32⟩) main_v91) maximumf ]

/-- Operations 123 … 127 of @main. -/
abbrev ops9 : List (HloOp τ sig (Elt F)) :=
  [ binary main_v47 main_v91 main_v92 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v92 main_arg6 main_v93 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg7 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v93 main_v95 main_v96 (addf : (⟨S50000x128, .f32⟩ : BufTy).Contents (Elt F) → (⟨S50000x128, .f32⟩ : BufTy).Contents (Elt F) → (⟨S50000x128, .f32⟩ : BufTy).Contents (Elt F)) ]

variable (m : (ℓ : Loc nD τ sig) → Buf (Elt F) ℓ) (c : Dev nD)

/-! ## The buffers after each stretch -/

/-- The buffers after stretch 1. -/
def L1 : Valuation τ sig (Elt F) := after ops1 (launchContents m c)

/-- The buffers after stretch 2. -/
def L2 : Valuation τ sig (Elt F) := after ops2 (L1 m c)

/-- The buffers after stretch 3. -/
def L3 : Valuation τ sig (Elt F) := after ops3 (L2 m c)

/-- The buffers after stretch 4. -/
def L4 : Valuation τ sig (Elt F) := after ops4 (L3 m c)

/-- The buffers after stretch 5. -/
def L5 : Valuation τ sig (Elt F) := after ops5 (L4 m c)

/-- The buffers after stretch 6. -/
def L6 : Valuation τ sig (Elt F) := after ops6 (L5 m c)

/-- The buffers after stretch 7. -/
def L7 : Valuation τ sig (Elt F) := after ops7 (L6 m c)

/-- The buffers after stretch 8. -/
def L8 : Valuation τ sig (Elt F) := after ops8 (L7 m c)

/-- The buffers after stretch 9. -/
def L9 : Valuation τ sig (Elt F) := after ops9 (L8 m c)

set_option maxRecDepth 65536 in
set_option maxHeartbeats 4000000 in
/-- The whole list's fold is the ninth stretch's. -/
theorem fold_eq : after (Cert.ReferenceIdeal.ValueP.ops (F := F)) (launchContents m c) = L9 m c := by
  unfold L9 L8 L7 L6 L5 L4 L3 L2 L1
  rfl

/-! ## Stretch 1: the edge ends, and the sign and inverse root of the degrees -/

theorem r1_v1 : L1 m c (Proc.devRef .tc main_v1) = shapeCast S800000 (extractStridedSlice S1x800000 ![0, 0] (m ((c.tc : Thread nD τ).loc main_arg1)) slices_S2x800000_S1x800000_0_0) shapeCasts_S1x800000_S800000 := by
  show after ops1 (launchContents m c) (Proc.devRef .tc main_v1) = _
  dsimp only [ops1]
  after_results
  try rfl

theorem r1_v3 : L1 m c (Proc.devRef .tc main_v3) = shapeCast S800000 (extractStridedSlice S1x800000 ![1, 0] (m ((c.tc : Thread nD τ).loc main_arg1)) slices_S2x800000_S1x800000_1_0) shapeCasts_S1x800000_S800000 := by
  show after ops1 (launchContents m c) (Proc.devRef .tc main_v3) = _
  dsimp only [ops1]
  after_results
  try rfl

theorem r1_v5 : L1 m c (Proc.devRef .tc main_v5) = Spec.srcOf (m ((c.tc : Thread nD τ).loc main_arg1)) := by
  show after ops1 (launchContents m c) (Proc.devRef .tc main_v5) = _
  dsimp only [ops1]
  after_results
  rfl

theorem r1_v6 : L1 m c (Proc.devRef .tc main_v6) = Spec.dstOf (m ((c.tc : Thread nD τ).loc main_arg1)) := by
  show after ops1 (launchContents m c) (Proc.devRef .tc main_v6) = _
  dsimp only [ops1]
  after_results
  rfl

set_option maxHeartbeats 1000000 in
theorem r1_v12 : L1 m c (Proc.devRef .tc main_v12) = cmpf (F := F) .ogt (Spec.deg (Spec.dstOf (m ((c.tc : Thread nD τ).loc main_arg1)))) (broadcastInDim S50000 ![] bcast_S_S50000 (constant S_ .f32 0x00000000#32)) := by
  show after ops1 (launchContents m c) (Proc.devRef .tc main_v12) = _
  dsimp only [ops1]
  after_results
  rfl

set_option maxHeartbeats 1000000 in
theorem r1_v13 : L1 m c (Proc.devRef .tc main_v13) = Host.rsqrt (Spec.deg (F := F) (Spec.dstOf (m ((c.tc : Thread nD τ).loc main_arg1)))) := by
  show after ops1 (launchContents m c) (Proc.devRef .tc main_v13) = _
  dsimp only [ops1]
  after_results
  rfl

theorem r1_cst2 : L1 m c (Proc.devRef .tc main_cst_2) = constant (F := F) S_ .f32 0x00000000#32 := by
  show after ops1 (launchContents m c) (Proc.devRef .tc main_cst_2) = _
  dsimp only [ops1]
  after_results
  try rfl

/-! ## Stretch 2: the inverse root degrees -/

theorem r2_v14 : L2 m c (Proc.devRef .tc main_v14) = Spec.dinv (F := F) (Spec.dstOf (m ((c.tc : Thread nD τ).loc main_arg1))) := by
  show after ops2 (L1 m c) (Proc.devRef .tc main_v14) = _
  dsimp only [ops2]
  after_results
  rw [r1_v12, r1_v13, r1_cst2]
  rfl

theorem c2_v1 : L2 m c (Proc.devRef .tc main_v1) = L1 m c (Proc.devRef .tc main_v1) := by
  show after ops2 (L1 m c) (Proc.devRef .tc main_v1) = _
  dsimp only [ops2]
  after_results
  try rfl

theorem c2_v3 : L2 m c (Proc.devRef .tc main_v3) = L1 m c (Proc.devRef .tc main_v3) := by
  show after ops2 (L1 m c) (Proc.devRef .tc main_v3) = _
  dsimp only [ops2]
  after_results
  try rfl

theorem c2_v5 : L2 m c (Proc.devRef .tc main_v5) = L1 m c (Proc.devRef .tc main_v5) := by
  show after ops2 (L1 m c) (Proc.devRef .tc main_v5) = _
  dsimp only [ops2]
  after_results
  try rfl

theorem c2_v6 : L2 m c (Proc.devRef .tc main_v6) = L1 m c (Proc.devRef .tc main_v6) := by
  show after ops2 (L1 m c) (Proc.devRef .tc main_v6) = _
  dsimp only [ops2]
  after_results
  try rfl

/-! ## Stretch 3: the edge weights -/

set_option maxHeartbeats 2000000 in
theorem r3_v29 : L3 m c (Proc.devRef .tc main_v29) = Spec.normOf (F := F) (Spec.srcOf (m ((c.tc : Thread nD τ).loc main_arg1))) (Spec.dstOf (m ((c.tc : Thread nD τ).loc main_arg1))) := by
  show after ops3 (L2 m c) (Proc.devRef .tc main_v29) = _
  dsimp only [ops3]
  after_results
  rw [r2_v14, c2_v5, r1_v5, c2_v6, r1_v6]
  rfl

theorem c3_v1 : L3 m c (Proc.devRef .tc main_v1) = L2 m c (Proc.devRef .tc main_v1) := by
  show after ops3 (L2 m c) (Proc.devRef .tc main_v1) = _
  dsimp only [ops3]
  after_results
  try rfl

theorem c3_v3 : L3 m c (Proc.devRef .tc main_v3) = L2 m c (Proc.devRef .tc main_v3) := by
  show after ops3 (L2 m c) (Proc.devRef .tc main_v3) = _
  dsimp only [ops3]
  after_results
  try rfl

theorem c3_v5 : L3 m c (Proc.devRef .tc main_v5) = L2 m c (Proc.devRef .tc main_v5) := by
  show after ops3 (L2 m c) (Proc.devRef .tc main_v5) = _
  dsimp only [ops3]
  after_results
  try rfl

theorem c3_v6 : L3 m c (Proc.devRef .tc main_v6) = L2 m c (Proc.devRef .tc main_v6) := by
  show after ops3 (L2 m c) (Proc.devRef .tc main_v6) = _
  dsimp only [ops3]
  after_results
  try rfl

theorem r3_v5 : L3 m c (Proc.devRef .tc main_v5) = Spec.srcOf (m ((c.tc : Thread nD τ).loc main_arg1)) := (c3_v5 m c).trans ((c2_v5 m c).trans (r1_v5 m c))

theorem r3_v6 : L3 m c (Proc.devRef .tc main_v6) = Spec.dstOf (m ((c.tc : Thread nD τ).loc main_arg1)) := (c3_v6 m c).trans ((c2_v6 m c).trans (r1_v6 m c))

/-! ## The arguments where they are read: no operation writes one -/

set_option maxHeartbeats 2000000 in
theorem a3_arg0 : L3 m c (Proc.devRef .tc main_arg0) = (m ((c.tc : Thread nD τ).loc main_arg0)) := by
  unfold L3 L2 L1
  dsimp only [ops3, ops2, ops1]
  after_results_simp <;> rfl

set_option maxHeartbeats 2000000 in
theorem a3_arg2 : L3 m c (Proc.devRef .tc main_arg2) = (m ((c.tc : Thread nD τ).loc main_arg2)) := by
  unfold L3 L2 L1
  dsimp only [ops3, ops2, ops1]
  after_results_simp <;> rfl

set_option maxHeartbeats 2000000 in
theorem a3_arg3 : L3 m c (Proc.devRef .tc main_arg3) = (m ((c.tc : Thread nD τ).loc main_arg3)) := by
  unfold L3 L2 L1
  dsimp only [ops3, ops2, ops1]
  after_results_simp <;> rfl

set_option maxHeartbeats 2000000 in
theorem a7_arg4 : L7 m c (Proc.devRef .tc main_arg4) = (m ((c.tc : Thread nD τ).loc main_arg4)) := by
  unfold L7 L6 L5 L4 L3 L2 L1
  dsimp only [ops7, ops6, ops5, ops4, ops3, ops2, ops1]
  after_results_simp <;> rfl

set_option maxHeartbeats 2000000 in
theorem a7_arg5 : L7 m c (Proc.devRef .tc main_arg5) = (m ((c.tc : Thread nD τ).loc main_arg5)) := by
  unfold L7 L6 L5 L4 L3 L2 L1
  dsimp only [ops7, ops6, ops5, ops4, ops3, ops2, ops1]
  after_results_simp <;> rfl

set_option maxHeartbeats 2000000 in
theorem a8_arg6 : L8 m c (Proc.devRef .tc main_arg6) = (m ((c.tc : Thread nD τ).loc main_arg6)) := by
  unfold L8 L7 L6 L5 L4 L3 L2 L1
  dsimp only [ops8, ops7, ops6, ops5, ops4, ops3, ops2, ops1]
  after_results_simp <;> rfl

set_option maxHeartbeats 2000000 in
theorem a8_arg7 : L8 m c (Proc.devRef .tc main_arg7) = (m ((c.tc : Thread nD τ).loc main_arg7)) := by
  unfold L8 L7 L6 L5 L4 L3 L2 L1
  dsimp only [ops8, ops7, ops6, ops5, ops4, ops3, ops2, ops1]
  after_results_simp <;> rfl

/-! ## Stretch 4: the first layer -/

set_option maxHeartbeats 2000000 in
theorem r4_v47 : L4 m c (Proc.devRef .tc main_v47) = (Spec.conv (F := F) (m ((c.tc : Thread nD τ).loc main_arg1)) (Host.dotGeneral dot_S50000x128_S128x128_S50000x128_1_0_0_1_n_n none (m ((c.tc : Thread nD τ).loc main_arg0)) (m ((c.tc : Thread nD τ).loc main_arg2))) (broadcastInDim S1x128 ![1] bcast_S128_S1x128_1 (m ((c.tc : Thread nD τ).loc main_arg3))) (broadcastInDim S50000x128 ![] bcast_S_S50000x128 (constant S_ .f32 0x00000000#32))) := by
  show after ops4 (L3 m c) (Proc.devRef .tc main_v47) = _
  dsimp only [ops4]
  after_results
  rw [r3_v29, r3_v5, r3_v6, a3_arg0, a3_arg2, a3_arg3]
  rfl

theorem c4_v1 : L4 m c (Proc.devRef .tc main_v1) = L3 m c (Proc.devRef .tc main_v1) := by
  show after ops4 (L3 m c) (Proc.devRef .tc main_v1) = _
  dsimp only [ops4]
  after_results
  try rfl

theorem c4_v3 : L4 m c (Proc.devRef .tc main_v3) = L3 m c (Proc.devRef .tc main_v3) := by
  show after ops4 (L3 m c) (Proc.devRef .tc main_v3) = _
  dsimp only [ops4]
  after_results
  try rfl

theorem r4_v1 : L4 m c (Proc.devRef .tc main_v1) = shapeCast S800000 (extractStridedSlice S1x800000 ![0, 0] (m ((c.tc : Thread nD τ).loc main_arg1)) slices_S2x800000_S1x800000_0_0) shapeCasts_S1x800000_S800000 :=
  (c4_v1 m c).trans ((c3_v1 m c).trans ((c2_v1 m c).trans (r1_v1 m c)))

theorem r4_v3 : L4 m c (Proc.devRef .tc main_v3) = shapeCast S800000 (extractStridedSlice S1x800000 ![1, 0] (m ((c.tc : Thread nD τ).loc main_arg1)) slices_S2x800000_S1x800000_1_0) shapeCasts_S1x800000_S800000 :=
  (c4_v3 m c).trans ((c3_v3 m c).trans ((c2_v3 m c).trans (r1_v3 m c)))

/-! ## Stretch 5: the edge ends built again from the same rows, and the degrees' sign and inverse root -/

theorem r5_v49 : L5 m c (Proc.devRef .tc main_v49) = Spec.srcOf (m ((c.tc : Thread nD τ).loc main_arg1)) := by
  show after ops5 (L4 m c) (Proc.devRef .tc main_v49) = _
  dsimp only [ops5]
  after_results
  rw [r4_v1]
  rfl

theorem r5_v50 : L5 m c (Proc.devRef .tc main_v50) = Spec.dstOf (m ((c.tc : Thread nD τ).loc main_arg1)) := by
  show after ops5 (L4 m c) (Proc.devRef .tc main_v50) = _
  dsimp only [ops5]
  after_results
  rw [r4_v3]
  rfl

set_option maxHeartbeats 1000000 in
theorem r5_v56 : L5 m c (Proc.devRef .tc main_v56) = cmpf (F := F) .ogt (Spec.deg (Spec.dstOf (m ((c.tc : Thread nD τ).loc main_arg1)))) (broadcastInDim S50000 ![] bcast_S_S50000 (constant S_ .f32 0x00000000#32)) := by
  show after ops5 (L4 m c) (Proc.devRef .tc main_v56) = _
  dsimp only [ops5]
  after_results
  rw [r4_v3]
  rfl

set_option maxHeartbeats 1000000 in
theorem r5_v57 : L5 m c (Proc.devRef .tc main_v57) = Host.rsqrt (Spec.deg (F := F) (Spec.dstOf (m ((c.tc : Thread nD τ).loc main_arg1)))) := by
  show after ops5 (L4 m c) (Proc.devRef .tc main_v57) = _
  dsimp only [ops5]
  after_results
  rw [r4_v3]
  rfl

theorem r5_cst12 : L5 m c (Proc.devRef .tc main_cst_12) = constant (F := F) S_ .f32 0x00000000#32 := by
  show after ops5 (L4 m c) (Proc.devRef .tc main_cst_12) = _
  dsimp only [ops5]
  after_results
  try rfl

theorem c5_v47 : L5 m c (Proc.devRef .tc main_v47) = L4 m c (Proc.devRef .tc main_v47) := by
  show after ops5 (L4 m c) (Proc.devRef .tc main_v47) = _
  dsimp only [ops5]
  after_results
  try rfl

/-! ## Stretch 6: the inverse root degrees -/

theorem r6_v58 : L6 m c (Proc.devRef .tc main_v58) = Spec.dinv (F := F) (Spec.dstOf (m ((c.tc : Thread nD τ).loc main_arg1))) := by
  show after ops6 (L5 m c) (Proc.devRef .tc main_v58) = _
  dsimp only [ops6]
  after_results
  rw [r5_v56, r5_v57, r5_cst12]
  rfl

theorem c6_v47 : L6 m c (Proc.devRef .tc main_v47) = L5 m c (Proc.devRef .tc main_v47) := by
  show after ops6 (L5 m c) (Proc.devRef .tc main_v47) = _
  dsimp only [ops6]
  after_results
  try rfl

theorem c6_v49 : L6 m c (Proc.devRef .tc main_v49) = L5 m c (Proc.devRef .tc main_v49) := by
  show after ops6 (L5 m c) (Proc.devRef .tc main_v49) = _
  dsimp only [ops6]
  after_results
  try rfl

theorem c6_v50 : L6 m c (Proc.devRef .tc main_v50) = L5 m c (Proc.devRef .tc main_v50) := by
  show after ops6 (L5 m c) (Proc.devRef .tc main_v50) = _
  dsimp only [ops6]
  after_results
  try rfl

/-! ## Stretch 7: the edge weights -/

set_option maxHeartbeats 2000000 in
theorem r7_v73 : L7 m c (Proc.devRef .tc main_v73) = Spec.normOf (F := F) (Spec.srcOf (m ((c.tc : Thread nD τ).loc main_arg1))) (Spec.dstOf (m ((c.tc : Thread nD τ).loc main_arg1))) := by
  show after ops7 (L6 m c) (Proc.devRef .tc main_v73) = _
  dsimp only [ops7]
  after_results
  rw [r6_v58, c6_v49, r5_v49, c6_v50, r5_v50]
  rfl

theorem c7_v47 : L7 m c (Proc.devRef .tc main_v47) = L6 m c (Proc.devRef .tc main_v47) := by
  show after ops7 (L6 m c) (Proc.devRef .tc main_v47) = _
  dsimp only [ops7]
  after_results
  try rfl

theorem c7_v49 : L7 m c (Proc.devRef .tc main_v49) = L6 m c (Proc.devRef .tc main_v49) := by
  show after ops7 (L6 m c) (Proc.devRef .tc main_v49) = _
  dsimp only [ops7]
  after_results
  try rfl

theorem c7_v50 : L7 m c (Proc.devRef .tc main_v50) = L6 m c (Proc.devRef .tc main_v50) := by
  show after ops7 (L6 m c) (Proc.devRef .tc main_v50) = _
  dsimp only [ops7]
  after_results
  try rfl

theorem r7_v49 : L7 m c (Proc.devRef .tc main_v49) = Spec.srcOf (m ((c.tc : Thread nD τ).loc main_arg1)) := (c7_v49 m c).trans ((c6_v49 m c).trans (r5_v49 m c))

theorem r7_v50 : L7 m c (Proc.devRef .tc main_v50) = Spec.dstOf (m ((c.tc : Thread nD τ).loc main_arg1)) := (c7_v50 m c).trans ((c6_v50 m c).trans (r5_v50 m c))

theorem r7_v47 : L7 m c (Proc.devRef .tc main_v47) = (Spec.conv (F := F) (m ((c.tc : Thread nD τ).loc main_arg1)) (Host.dotGeneral dot_S50000x128_S128x128_S50000x128_1_0_0_1_n_n none (m ((c.tc : Thread nD τ).loc main_arg0)) (m ((c.tc : Thread nD τ).loc main_arg2))) (broadcastInDim S1x128 ![1] bcast_S128_S1x128_1 (m ((c.tc : Thread nD τ).loc main_arg3))) (broadcastInDim S50000x128 ![] bcast_S_S50000x128 (constant S_ .f32 0x00000000#32))) :=
  (c7_v47 m c).trans ((c6_v47 m c).trans ((c5_v47 m c).trans (r4_v47 m c)))

/-! ## Stretch 8: the second layer -/

set_option maxHeartbeats 2000000 in
theorem r8_v91 : L8 m c (Proc.devRef .tc main_v91) = (Spec.conv (F := F) (m ((c.tc : Thread nD τ).loc main_arg1)) (Host.dotGeneral dot_S50000x128_S128x128_S50000x128_1_0_0_1_n_n none (Spec.conv (F := F) (m ((c.tc : Thread nD τ).loc main_arg1)) (Host.dotGeneral dot_S50000x128_S128x128_S50000x128_1_0_0_1_n_n none (m ((c.tc : Thread nD τ).loc main_arg0)) (m ((c.tc : Thread nD τ).loc main_arg2))) (broadcastInDim S1x128 ![1] bcast_S128_S1x128_1 (m ((c.tc : Thread nD τ).loc main_arg3))) (broadcastInDim S50000x128 ![] bcast_S_S50000x128 (constant S_ .f32 0x00000000#32))) (m ((c.tc : Thread nD τ).loc main_arg4))) (broadcastInDim S1x128 ![1] bcast_S128_S1x128_1 (m ((c.tc : Thread nD τ).loc main_arg5))) (broadcastInDim S50000x128 ![] bcast_S_S50000x128 (constant S_ .f32 0x00000000#32))) := by
  show after ops8 (L7 m c) (Proc.devRef .tc main_v91) = _
  dsimp only [ops8]
  after_results
  rw [r7_v73, r7_v49, r7_v50, r7_v47, a7_arg4, a7_arg5]
  rfl

theorem c8_v47 : L8 m c (Proc.devRef .tc main_v47) = L7 m c (Proc.devRef .tc main_v47) := by
  show after ops8 (L7 m c) (Proc.devRef .tc main_v47) = _
  dsimp only [ops8]
  after_results
  try rfl

/-! ## Stretch 9: the two layers side by side through the last linear layer -/

set_option maxHeartbeats 2000000 in
theorem r9_v96 : L9 m c (Proc.devRef .tc main_v96) = Spec.out dot_S50000x128_S128x128_S50000x128_1_0_0_1_n_n dot_S50000x256_S256x128_S50000x128_1_0_0_1_n_n (m ((c.tc : Thread nD τ).loc main_arg0)) (m ((c.tc : Thread nD τ).loc main_arg1)) (m ((c.tc : Thread nD τ).loc main_arg2)) (broadcastInDim S1x128 ![1] bcast_S128_S1x128_1 (m ((c.tc : Thread nD τ).loc main_arg3))) (m ((c.tc : Thread nD τ).loc main_arg4)) (broadcastInDim S1x128 ![1] bcast_S128_S1x128_1 (m ((c.tc : Thread nD τ).loc main_arg5))) (m ((c.tc : Thread nD τ).loc main_arg6)) (broadcastInDim S1x128 ![1] bcast_S128_S1x128_1 (m ((c.tc : Thread nD τ).loc main_arg7))) (broadcastInDim S50000x128 ![] bcast_S_S50000x128 (constant S_ .f32 0x00000000#32)) := by
  show after ops9 (L8 m c) (Proc.devRef .tc main_v96) = _
  dsimp only [ops9]
  after_results
  rw [c8_v47, r7_v47, r8_v91, a8_arg6, a8_arg7]
  rfl

/-- THE REFERENCE'S RESULT: the network of the argument arrays. -/
theorem result : after (Cert.ReferenceIdeal.ValueP.ops (F := F)) (launchContents m c) (Proc.devRef .tc main_v96)
    = Spec.out dot_S50000x128_S128x128_S50000x128_1_0_0_1_n_n dot_S50000x256_S256x128_S50000x128_1_0_0_1_n_n (m ((c.tc : Thread nD τ).loc main_arg0)) (m ((c.tc : Thread nD τ).loc main_arg1)) (m ((c.tc : Thread nD τ).loc main_arg2)) (broadcastInDim S1x128 ![1] bcast_S128_S1x128_1 (m ((c.tc : Thread nD τ).loc main_arg3))) (m ((c.tc : Thread nD τ).loc main_arg4)) (broadcastInDim S1x128 ![1] bcast_S128_S1x128_1 (m ((c.tc : Thread nD τ).loc main_arg5))) (m ((c.tc : Thread nD τ).loc main_arg6)) (broadcastInDim S1x128 ![1] bcast_S128_S1x128_1 (m ((c.tc : Thread nD τ).loc main_arg7))) (broadcastInDim S50000x128 ![] bcast_S_S50000x128 (constant S_ .f32 0x00000000#32)) := by
  rw [fold_eq]; exact r9_v96 m c

/-! ## The arguments end as launched -/

set_option maxHeartbeats 4000000 in
theorem kept_arg0 : after (Cert.ReferenceIdeal.ValueP.ops (F := F)) (launchContents m c) (Proc.devRef .tc main_arg0) = (m ((c.tc : Thread nD τ).loc main_arg0)) := by
  dsimp only [Cert.ReferenceIdeal.ValueP.ops]
  after_results_simp <;> rfl

set_option maxHeartbeats 4000000 in
theorem kept_arg1 : after (Cert.ReferenceIdeal.ValueP.ops (F := F)) (launchContents m c) (Proc.devRef .tc main_arg1) = (m ((c.tc : Thread nD τ).loc main_arg1)) := by
  dsimp only [Cert.ReferenceIdeal.ValueP.ops]
  after_results_simp <;> rfl

set_option maxHeartbeats 4000000 in
theorem kept_arg2 : after (Cert.ReferenceIdeal.ValueP.ops (F := F)) (launchContents m c) (Proc.devRef .tc main_arg2) = (m ((c.tc : Thread nD τ).loc main_arg2)) := by
  dsimp only [Cert.ReferenceIdeal.ValueP.ops]
  after_results_simp <;> rfl

set_option maxHeartbeats 4000000 in
theorem kept_arg3 : after (Cert.ReferenceIdeal.ValueP.ops (F := F)) (launchContents m c) (Proc.devRef .tc main_arg3) = (m ((c.tc : Thread nD τ).loc main_arg3)) := by
  dsimp only [Cert.ReferenceIdeal.ValueP.ops]
  after_results_simp <;> rfl

set_option maxHeartbeats 4000000 in
theorem kept_arg4 : after (Cert.ReferenceIdeal.ValueP.ops (F := F)) (launchContents m c) (Proc.devRef .tc main_arg4) = (m ((c.tc : Thread nD τ).loc main_arg4)) := by
  dsimp only [Cert.ReferenceIdeal.ValueP.ops]
  after_results_simp <;> rfl

set_option maxHeartbeats 4000000 in
theorem kept_arg5 : after (Cert.ReferenceIdeal.ValueP.ops (F := F)) (launchContents m c) (Proc.devRef .tc main_arg5) = (m ((c.tc : Thread nD τ).loc main_arg5)) := by
  dsimp only [Cert.ReferenceIdeal.ValueP.ops]
  after_results_simp <;> rfl

set_option maxHeartbeats 4000000 in
theorem kept_arg6 : after (Cert.ReferenceIdeal.ValueP.ops (F := F)) (launchContents m c) (Proc.devRef .tc main_arg6) = (m ((c.tc : Thread nD τ).loc main_arg6)) := by
  dsimp only [Cert.ReferenceIdeal.ValueP.ops]
  after_results_simp <;> rfl

set_option maxHeartbeats 4000000 in
theorem kept_arg7 : after (Cert.ReferenceIdeal.ValueP.ops (F := F)) (launchContents m c) (Proc.devRef .tc main_arg7) = (m ((c.tc : Thread nD τ).loc main_arg7)) := by
  dsimp only [Cert.ReferenceIdeal.ValueP.ops]
  after_results_simp <;> rfl

end Cert.ReferenceIdeal.RefWalk

end
-- ==== Proof.Bridge.lean ====
import proofs.«122393_j6803228196877_1_alg».proof.Proof.Gen.KernelIdeal
import proofs.«122393_j6803228196877_1_alg».proof.Proof.Gen.ReferenceIdeal
import Idealize.ShloMosaic.Lib.Pipeline.Value
import Idealize.ShloMosaic.Lib.ValueIdx
import Idealize.ShloMosaic.Lib.KernelVsHost

/-!
  Three places where the two programs spell one thing differently: a bias vector as a one-row matrix (a reshape in the
  kernel program, a broadcast along axis 1 in the reference: both put entry `j` of the vector at `(0, j)`); the zero
  array (the splat of the scalar zero; the broadcast of the zero constant); a plain matrix product's dimension record.
-/

noncomputable section

namespace Cert.Bridge

open Idealize.ShloMosaic Idealize.ShloMosaic.ValueIdx

/-- A vector of 128 entries recast as a one-row matrix is its broadcast along axis 1 into that shape. -/
theorem row_eq {α : Type} (b : (⟨1, ![128]⟩ : Shape).Idx → α) (h1 : (⟨1, ![128]⟩ : Shape).ShapeCasts ⟨2, ![1, 128]⟩)
    (hd : (⟨1, ![128]⟩ : Shape).BroadcastsInDim ⟨2, ![1, 128]⟩ ![1]) :
    shapeCast ⟨2, ![1, 128]⟩ b h1 = broadcastInDim ⟨2, ![1, 128]⟩ ![1] hd b := by
  funext i
  have h0 : (i 0).val = 0 := by have := (i 0).isLt; have e : (i 0).val < 1 := this; omega
  have e2 := shapeCast_apply b h1 i (ix1 (i 1 : Fin 128)) (by
    rw [Shape.rowMajor_val_two, Shape.rowMajor_val_one]; show (i 1).val = (i 0).val * 128 + (i 1).val; omega)
  have e3 := broadcastInDim_apply ![1] hd b i (ix1 (i 1 : Fin 128)) (by
    intro a
    match a with
    | ⟨0, _⟩ => show (i 1).val = if (128 : ℕ) = 1 then 0 else (i 1).val; simp)
  exact e2.trans e3.symm

/-- The splat of the scalar zero is the broadcast of the zero constant. -/
theorem zero_eq {F : FTy → Type} [FloatOps F] {t : Shape} (h : (⟨0, ![]⟩ : Shape).BroadcastsInDim t (![] : Fin 0 → Fin t.rank)) :
    broadcast t (Scalar.ofBits (F := F) .f32 0x00000000#32) = broadcastInDim t ![] h (constant (F := F) ⟨0, ![]⟩ .f32 0x00000000#32) :=
  funext fun _ => rfl

/-- The reference's printed records of its two matrix products are the plain ones. -/
theorem dot128_eq : DotDims.plain 50000 128 128 = Cert.ReferenceIdeal.dot_S50000x128_S128x128_S50000x128_1_0_0_1_n_n := rfl
theorem dot256_eq : DotDims.plain 50000 256 128 = Cert.ReferenceIdeal.dot_S50000x256_S256x128_S50000x128_1_0_0_1_n_n := rfl

end Cert.Bridge

end
-- ==== Proof.lean ====
/-
  A two-layer graph convolution over 50000 nodes and 850000 edges (800000 given, plus the self loops), its two layers'
  outputs side by side through a last linear layer. The kernel program and the reference compute ONE function of the
  argument arrays at the ideal values: the edge ends, the degrees, the edge weights `deg(src)^(-1/2) · deg(dst)^(-1/2)`, the
  gather of the transformed features along the edges and their sum at the destinations are the same host operations
  in both programs. They differ in five places only, and there they agree at the ideal values:
  * a matrix product `x · W` is a whole `dot_general` in the reference and, in the kernel program, ten blocks of 5000
    rows, each the product of the block with the whole `W` accumulated into zero after a change of float format that
    is the identity on extended reals: row `r` of the product reads row `r` of `x` only, so the blocks tile it;
  * `max(agg + b, 0)` is the reference's addition of the bias broadcast down the rows and a clip at the zero array,
    and in the kernel program ten blocks of the same pointwise expression with the bias as a one-row matrix;
  * the last layer `jk · W + b` likewise.
  No law of real arithmetic beyond the meaning of a sum over the contracted axis is used, so finiteness of the inputs
  is never opened. The three frames are the generated ones (the reference's is its run with the result dropped), and
  the ideal pass rewrote nothing.
-/
import proofs.«122393_j6803228196877_1_alg».proof.Defs
import proofs.«122393_j6803228196877_1_alg».proof.Proof.Gen.Kernel
import proofs.«122393_j6803228196877_1_alg».proof.Proof.Gen.Kernel.Frame
import proofs.«122393_j6803228196877_1_alg».proof.Proof.Gen.KernelIdeal
import proofs.«122393_j6803228196877_1_alg».proof.Proof.Gen.KernelIdeal.Frame
import proofs.«122393_j6803228196877_1_alg».proof.Proof.Gen.ReferenceIdeal
import proofs.«122393_j6803228196877_1_alg».proof.Proof.Gen.Pre_finite_inputs
import proofs.«122393_j6803228196877_1_alg».proof.Proof.KRun
import proofs.«122393_j6803228196877_1_alg».proof.Proof.KValue
import proofs.«122393_j6803228196877_1_alg».proof.Proof.RefRun
import proofs.«122393_j6803228196877_1_alg».proof.Proof.RefWalk
import proofs.«122393_j6803228196877_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- A bias vector as the reference lays it out: broadcast to a one-row matrix. -/
abbrev rowR (b : FVec Ideal Cert.ReferenceIdeal.S128 .f32) : FVec Ideal Cert.ReferenceIdeal.S1x128 .f32 :=
  broadcastInDim Cert.ReferenceIdeal.S1x128 ![1] Cert.ReferenceIdeal.Gen.bcast_S128_S1x128_1 b
/-- The zero array a layer clips at, as the reference spells it. -/
abbrev zeroR : FVec Ideal Cert.ReferenceIdeal.S50000x128 .f32 :=
  broadcastInDim Cert.ReferenceIdeal.S50000x128 ![] Cert.ReferenceIdeal.Gen.bcast_S_S50000x128 (constant Cert.ReferenceIdeal.S_ .f32 0x00000000#32)

/-- The network with the kernel program's spellings (bias rows as one-row casts, the zero as a splat, plain matrix
    products) is the network with the reference's (bias rows broadcast along axis 1, the zero constant broadcast, the
    printed records). -/
theorem out_agree (x : FVec Ideal Cert.ReferenceIdeal.S50000x128 .f32) (ei : IVec Cert.ReferenceIdeal.S2x800000 32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (LW : FVec Ideal Cert.ReferenceIdeal.S256x128 .f32) (lb : FVec Ideal Cert.ReferenceIdeal.S128 .f32) :
    Cert.ReferenceIdeal.Spec.out (DotDims.plain 50000 128 128) (DotDims.plain 50000 256 128) x ei W1 (Cert.KernelIdeal.Walk.rowK b1)
        W2 (Cert.KernelIdeal.Walk.rowK b2) LW (Cert.KernelIdeal.Walk.rowK lb) Cert.KernelIdeal.Walk.zeroK
      = Cert.ReferenceIdeal.Spec.out Cert.ReferenceIdeal.dot_S50000x128_S128x128_S50000x128_1_0_0_1_n_n
          Cert.ReferenceIdeal.dot_S50000x256_S256x128_S50000x128_1_0_0_1_n_n x ei W1 (rowR b1) W2 (rowR b2) LW (rowR lb) zeroR := by
  have r1 : Cert.KernelIdeal.Walk.rowK b1 = rowR b1 := Cert.Bridge.row_eq b1 _ _
  have r2 : Cert.KernelIdeal.Walk.rowK b2 = rowR b2 := Cert.Bridge.row_eq b2 _ _
  have r3 : Cert.KernelIdeal.Walk.rowK lb = rowR lb := Cert.Bridge.row_eq lb _ _
  have z : Cert.KernelIdeal.Walk.zeroK = zeroR := Cert.Bridge.zero_eq _
  rw [r1, r2, r3, z, Cert.Bridge.dot128_eq, Cert.Bridge.dot256_eq]

theorem frame_k : Cert.frame_Kernel := fun m ρ _ => Cert.Kernel.Gen.frame m ρ

theorem frame_ki : Cert.frame_KernelIdeal := fun m ρ _ => Cert.KernelIdeal.Gen.frame m ρ

/-- The reference's run: every weakly fair execution ends with the result buffer at the network of the argument
    arrays and the arguments as launched. -/
theorem run_ri (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v96)
        = Cert.ReferenceIdeal.Spec.out Cert.ReferenceIdeal.dot_S50000x128_S128x128_S50000x128_1_0_0_1_n_n Cert.ReferenceIdeal.dot_S50000x256_S256x128_S50000x128_1_0_0_1_n_n
            (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2)) (rowR (m ((c.tc : Thread Cert.ReferenceIdeal.nD Cert.ReferenceIdeal.τ).loc Cert.ReferenceIdeal.main_arg3)))
            (m ((c.tc : Thread Cert.ReferenceIdeal.nD Cert.ReferenceIdeal.τ).loc Cert.ReferenceIdeal.main_arg4)) (rowR (m ((c.tc : Thread Cert.ReferenceIdeal.nD Cert.ReferenceIdeal.τ).loc Cert.ReferenceIdeal.main_arg5)))
            (m ((c.tc : Thread Cert.ReferenceIdeal.nD Cert.ReferenceIdeal.τ).loc Cert.ReferenceIdeal.main_arg6)) (rowR (m ((c.tc : Thread Cert.ReferenceIdeal.nD Cert.ReferenceIdeal.τ).loc Cert.ReferenceIdeal.main_arg7))) zeroR
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono (fun r h c =>
    ⟨(h c Cert.ReferenceIdeal.main_v96).trans (Cert.ReferenceIdeal.RefWalk.result m c),
     (h c Cert.ReferenceIdeal.main_arg0).trans (Cert.ReferenceIdeal.RefWalk.kept_arg0 m c),
     (h c Cert.ReferenceIdeal.main_arg1).trans (Cert.ReferenceIdeal.RefWalk.kept_arg1 m c),
     (h c Cert.ReferenceIdeal.main_arg2).trans (Cert.ReferenceIdeal.RefWalk.kept_arg2 m c),
     (h c Cert.ReferenceIdeal.main_arg3).trans (Cert.ReferenceIdeal.RefWalk.kept_arg3 m c),
     (h c Cert.ReferenceIdeal.main_arg4).trans (Cert.ReferenceIdeal.RefWalk.kept_arg4 m c),
     (h c Cert.ReferenceIdeal.main_arg5).trans (Cert.ReferenceIdeal.RefWalk.kept_arg5 m c),
     (h c Cert.ReferenceIdeal.main_arg6).trans (Cert.ReferenceIdeal.RefWalk.kept_arg6 m c),
     (h c Cert.ReferenceIdeal.main_arg7).trans (Cert.ReferenceIdeal.RefWalk.kept_arg7 m c)⟩)
    (Cert.ReferenceIdeal.ValueP.run_after (F := Ideal) m ρ)

/-- The reference has no kernel: its frame is its run with the result dropped. -/
theorem frame_ri : Cert.frame_ReferenceIdeal := fun m ρ _ =>
  (θ_run Cert.ReferenceIdeal.defs _ _).mono (fun _ h c => (h c).2) (run_ri m ρ)

/-- The ideal pass rewrote no operation. -/
theorem preserves : Cert.preserves_Kernel_KernelIdeal := trivial

/-- Both programs end with the network of the argument arrays in their result buffer. -/
theorem algebraic : Cert.algebraic_KernelIdeal_ReferenceIdeal := by
  intro m ρ m' ρ' _ hagree
  refine ⟨fun c => Cert.KernelIdeal.Gen.V14 m ρ c Cert.KernelIdeal.main_v87, Cert.KernelIdeal.GenV.run_named m ρ, ?_⟩
  refine (θ_run Cert.ReferenceIdeal.defs _ _).mono (fun r h c => ⟨(h c).1.trans ?_, (h c).2⟩) (run_ri m' ρ')
  show _ = Cert.KernelIdeal.Gen.V14 m ρ c Cert.KernelIdeal.main_v87
  rw [Cert.KernelIdeal.Walk.result m ρ c,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  exact (out_agree _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
